-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S1x512x1024 : Shape := ⟨3, ![1, 512, 1024]⟩
abbrev S512x512 : Shape := ⟨2, ![512, 512]⟩

abbrev nBuf : Space → Nat
  | .hbm => 22
  | .vmem => 27
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S4x2048x1024, .f32⟩
  | .hbm, ⟨15, _⟩ => ⟨S1x1024, .f32⟩
  | .hbm, ⟨16, _⟩ => ⟨S8192x1024, .f32⟩
  | .hbm, ⟨17, _⟩ => ⟨S4x2048x1024, .f32⟩
  | .hbm, ⟨18, _⟩ => ⟨S1x1024, .f32⟩
  | .hbm, ⟨19, _⟩ => ⟨S8192x1024, .f32⟩
  | .hbm, ⟨20, _⟩ => ⟨S4x2048x1024, .f32⟩
  | .hbm, ⟨21, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1024, .f32⟩
  | .local _ .vmem, ⟨24, _⟩ => ⟨S1x512x1024, .f32⟩
  | .local _ .vmem, ⟨25, _⟩ => ⟨S1x512x1024, .f32⟩
  | .local _ .vmem, ⟨26, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![4, 4, 4], ![false, false, false]⟩

def k3_cond2 (i : grid3.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S1x512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  shapeCasts_S4x2048x1024_S8192x1024 : S4x2048x1024.ShapeCasts S8192x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .f32 = 32 ∨ (Rect.block (s := S8192x1024) S512x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x1024.size a ≤ S4x2048x1024.size a
  hwx3_0 : ∀ i : grid3.Coords, EltTy.bits .f32 = 32 ∨ (Rect.block (s := S4x2048x1024) S1x512x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x1024.size a ≤ S4x2048x1024.size a
  hwx3_1 : ∀ i : grid3.Coords, EltTy.bits .f32 = 32 ∨ (Rect.block (s := S4x2048x1024) S1x512x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x1024.size a ≤ S4x2048x1024.size a
  hwx3_2 : ∀ i : grid3.Coords, EltTy.bits .f32 = 32 ∨ (Rect.block (s := S4x2048x1024) S1x512x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x1024.size a ≤ S4x2048x1024.size a
  hwx3_3 : ∀ i : grid3.Coords, EltTy.bits .f32 = 32 ∨ (Rect.block (s := S4x2048x1024) S1x512x1024.size (cc3_transform_3 i) (hinb3_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v5) S1x512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S1x512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x512x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12) S1x512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.Lin0.lean ====
import proofs.«101586_j4587025072774_1_alg».proof.Proof.Gen.Kernel.Launch
import proofs.«101586_j4587025072774_1_alg».proof.Proof.Gen.Kernel.Skeleton
import proofs.«101586_j4587025072774_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Projection region 0: one grid point computes 512 rows of  y = x · wᵀ + b

The region walks 16 grid points; point t stages rows 512·t … 512·t + 511 of the activations (window 0),
the whole weight matrix (window 1) and the bias row (window 2), and writes the 512 × 1024 result block
(window 3) back to rows 512·t … of the output. Stated at any entry contents `V` of the core's buffers:
what each window's buffer holds when the body starts, the body's one store as a function of the three
loaded blocks, and that the body at every point takes the former to the latter.
-/

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether the point fetched it or the index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each of the four buffers whole. -/
abbrev rx0 : Rect S512x1024 := Rect.unit (s := S512x1024) ![0, 0] S512x1024.size inb_S512x1024_S512x1024_0_0
abbrev rw0 : Rect S1024x1024 := Rect.unit (s := S1024x1024) ![0, 0] S1024x1024.size inb_S1024x1024_S1024x1024_0_0
abbrev rb0 : Rect S1x1024 := Rect.unit (s := S1x1024) ![0, 0] S1x1024.size inb_S1x1024_S1x1024_0_0

/-- What the body leaves in the result window's buffer: its one store, of the product-plus-bias payload of the three loads. -/
def out0_3 (x0 : Vec F S512x1024 .f32) (x1 : Vec F S1024x1024 .f32) (x2 : Vec F S1x1024 .f32) : Vec F S512x1024 .f32 :=
  View.canon [⟨rx0, k0_pay1 (View.ld x0 rx0) (View.ld x1 rw0) (View.ld x2 rb0)⟩]

/-- The one store covers the buffer. -/
theorem cover0_3 (p0 : Vec F S512x1024 .f32) (y : S512x1024.Idx) :
    ∃ pc ∈ ([⟨rx0, p0⟩] : List (View.Piece (Elt F) S512x1024 .f32)), y ∈ pc.1.set :=
  View.cover_of_tiled [⟨rx0, p0⟩] S512x1024.size (by rfl) y

set_option maxHeartbeats 1000000 in
/-- The body on whole staging memrefs: the three inputs at read contents, the result buffer at anything, runs to the
    continuation with the inputs as they were and the result buffer at `out0_3` of them. -/
theorem sound_kernel0 (c : Dev nD) (E : Set ℕ) (i : grid0.Coords) (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at point `t` each input's
    buffer at its block and the result's at `out0_3` of the three blocks; nothing carried between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies; the invariant and the
    core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Gen.Hand

end
-- ==== Proof.K.Lin1.lean ====
import proofs.«101586_j4587025072774_1_alg».proof.Proof.Gen.Kernel.Launch
import proofs.«101586_j4587025072774_1_alg».proof.Proof.Gen.Kernel.Skeleton
import proofs.«101586_j4587025072774_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Projection region 1: one grid point computes 512 rows of  y = x · wᵀ + b

The region walks 16 grid points; point t stages rows 512·t … 512·t + 511 of the activations (window 0),
the whole weight matrix (window 1) and the bias row (window 2), and writes the 512 × 1024 result block
(window 3) back to rows 512·t … of the output. Stated at any entry contents `V` of the core's buffers:
what each window's buffer holds when the body starts, the body's one store as a function of the three
loaded blocks, and that the body at every point takes the former to the latter.
-/

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, whether the point fetched it or the index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each of the four buffers whole. -/
abbrev rx1 : Rect S512x1024 := Rect.unit (s := S512x1024) ![0, 0] S512x1024.size inb_S512x1024_S512x1024_0_0
abbrev rw1 : Rect S1024x1024 := Rect.unit (s := S1024x1024) ![0, 0] S1024x1024.size inb_S1024x1024_S1024x1024_0_0
abbrev rb1 : Rect S1x1024 := Rect.unit (s := S1x1024) ![0, 0] S1x1024.size inb_S1x1024_S1x1024_0_0

/-- What the body leaves in the result window's buffer: its one store, of the product-plus-bias payload of the three loads. -/
def out1_3 (x0 : Vec F S512x1024 .f32) (x1 : Vec F S1024x1024 .f32) (x2 : Vec F S1x1024 .f32) : Vec F S512x1024 .f32 :=
  View.canon [⟨rx1, k1_pay1 (View.ld x0 rx1) (View.ld x1 rw1) (View.ld x2 rb1)⟩]

/-- The one store covers the buffer. -/
theorem cover1_3 (p0 : Vec F S512x1024 .f32) (y : S512x1024.Idx) :
    ∃ pc ∈ ([⟨rx1, p0⟩] : List (View.Piece (Elt F) S512x1024 .f32)), y ∈ pc.1.set :=
  View.cover_of_tiled [⟨rx1, p0⟩] S512x1024.size (by rfl) y

set_option maxHeartbeats 1000000 in
/-- The body on whole staging memrefs: the three inputs at read contents, the result buffer at anything, runs to the
    continuation with the inputs as they were and the result buffer at `out1_3` of them. -/
theorem sound_kernel1 (c : Dev nD) (E : Set ℕ) (i : grid1.Coords) (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data on core `c`: the arrays as the region finds them; after the body at point `t` each input's
    buffer at its block and the result's at `out1_3` of the three blocks; nothing carried between points, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's run applies; the invariant and the
    core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Gen.Hand

end
-- ==== Proof.K.Lin2.lean ====
import proofs.«101586_j4587025072774_1_alg».proof.Proof.Gen.Kernel.Launch
import proofs.«101586_j4587025072774_1_alg».proof.Proof.Gen.Kernel.Skeleton
import proofs.«101586_j4587025072774_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Projection region 2: one grid point computes 512 rows of  y = x · wᵀ + b

The region walks 16 grid points; point t stages rows 512·t … 512·t + 511 of the activations (window 0),
the whole weight matrix (window 1) and the bias row (window 2), and writes the 512 × 1024 result block
(window 3) back to rows 512·t … of the output. Stated at any entry contents `V` of the core's buffers:
what each window's buffer holds when the body starts, the body's one store as a function of the three
loaded blocks, and that the body at every point takes the former to the latter.
-/

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, whether the point fetched it or the index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each of the four buffers whole. -/
abbrev rx2 : Rect S512x1024 := Rect.unit (s := S512x1024) ![0, 0] S512x1024.size inb_S512x1024_S512x1024_0_0
abbrev rw2 : Rect S1024x1024 := Rect.unit (s := S1024x1024) ![0, 0] S1024x1024.size inb_S1024x1024_S1024x1024_0_0
abbrev rb2 : Rect S1x1024 := Rect.unit (s := S1x1024) ![0, 0] S1x1024.size inb_S1x1024_S1x1024_0_0

/-- What the body leaves in the result window's buffer: its one store, of the product-plus-bias payload of the three loads. -/
def out2_3 (x0 : Vec F S512x1024 .f32) (x1 : Vec F S1024x1024 .f32) (x2 : Vec F S1x1024 .f32) : Vec F S512x1024 .f32 :=
  View.canon [⟨rx2, k2_pay1 (View.ld x0 rx2) (View.ld x1 rw2) (View.ld x2 rb2)⟩]

/-- The one store covers the buffer. -/
theorem cover2_3 (p0 : Vec F S512x1024 .f32) (y : S512x1024.Idx) :
    ∃ pc ∈ ([⟨rx2, p0⟩] : List (View.Piece (Elt F) S512x1024 .f32)), y ∈ pc.1.set :=
  View.cover_of_tiled [⟨rx2, p0⟩] S512x1024.size (by rfl) y

set_option maxHeartbeats 1000000 in
/-- The body on whole staging memrefs: the three inputs at read contents, the result buffer at anything, runs to the
    continuation with the inputs as they were and the result buffer at `out2_3` of them. -/
theorem sound_kernel2 (c : Dev nD) (E : Set ℕ) (i : grid2.Coords) (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data on core `c`: the arrays as the region finds them; after the body at point `t` each input's
    buffer at its block and the result's at `out2_3` of the three blocks; nothing carried between points, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's run applies; the invariant and the
    core's dues pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Gen.Hand

end
-- ==== Proof.K.Attn.lean ====
import proofs.«101586_j4587025072774_1_alg».proof.Proof.Gen.Kernel.Launch
import proofs.«101586_j4587025072774_1_alg».proof.Proof.Gen.Kernel.Skeleton
import proofs.«101586_j4587025072774_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Attention region: a grid of 4 × 4 × 4 points accumulating  relu(q · kᵀ) · v  over the key blocks

Point (b, i, j) stages the query block (b, i) (window 0, fetched when j = 0), the key block (b, j) and the value
block (b, j) (windows 1 and 2, fetched at every point), and adds bf16(relu(bf16 q · bf16 kᵀ)) · bf16 v to a
512 × 1024 accumulator the kernel keeps between points: zeroed at j = 0, and at j = 3 copied to the result
block (b, i) (window 3), which is written back there and idle elsewhere. Stated at any entry contents `V` of
the core's buffers: what each window's buffer holds when the body starts, what the body leaves in the result
buffer and in the accumulator as a function of the point's three blocks and the accumulator before, and that
the body at every point takes the former to the latter.
-/

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block at every point, whether the point fetched it or the index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two conditions of the body -/

/-- The first `scf.if`: the key-block coordinate is 0. -/
abbrev cond3_0 (i : grid3.Coords) : Prop := (Scalar.cmpi .ne (Scalar.extui (Scalar.cmpi .eq (BitVec.ofNat 32 (i 2).val) 0#32)) 0#32) = 1#1
/-- It holds at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- The second `scf.if`: the key-block coordinate is 3. -/
abbrev cond3_1 (i : grid3.Coords) : Prop := k3_cond2 i = 1#1
/-- It holds at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Where the second condition fails the result window is idle and not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- Where it holds the window is live. -/
theorem liveAt3_3 : ∀ t : Fin cfg3.N, cond3_1 (grid3.coords t) → cfg3.idle 3 (grid3.coords t) = false := by decide +kernel

/-! ## The memrefs the body is called on -/

/-- One staging buffer of the result window, through which its contents are stated. -/
abbrev VO3_3 : View sig .tc .vmem S1x512x1024 .f32 := (Memref.whole cc3_stg3_0 : Memref sig .tc .vmem S1x512x1024 .f32).view
abbrev ms3_0 (t : Fin cfg3.N) : Memref sig .tc .vmem S1x512x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x512x1024 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3_0 : Memref sig .tc .vmem S512x1024 .f32 := Memref.whole cc3_scratch0
abbrev VS3_0 : View sig .tc .vmem S512x1024 .f32 := scM3_0.view

/-- The core's scoped buffers that are neither a staging buffer of this region nor the accumulator, at some contents each. -/
abbrev restBut3 (c : Dev nD) : sProp 𝕄 :=
  Pipeline.scopedRestBut (Ix := Unit) (Name := ℕ) (U := UR sig nD τ) (Lvl := ℕ) (Val := Elt F) spec3 c [cc3_scratch0]

/-- The region's entry invariant with the accumulator split off the scoped rest as a memref owned at some contents. -/
theorem PhiA3_eq (c : Dev nD) :
    (Pipeline.ΦA spec3 c : sProp 𝕄)
      = iprop(iprop((∃ d, owns (c : Thread nD τ) scM3_0 fullShare d) ∗ restBut3 (F := F) c) ∗ (∃ r, prngReg c r)) := by
  unfold Pipeline.ΦA
  rw [Pipeline.scopedRest_split_of_list spec3 c [cc3_scratch0] (by decide) (List.nodup_singleton _)]
  simp only [bigSepL_singleton, scM3_0, owns_whole]; try rfl

/-! ## The body on any whole memrefs, case by case -/

set_option maxHeartbeats 1000000 in
/-- The body in case A, on whole memrefs. -/
noncomputable def kernelRun3_A (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : cond3_0 i) (hc1 : ¬cond3_1 i)
    (x0 x1 x2 : Vec F S1x512x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__attn_kernel i arg3 harg3 arg4 harg4 arg5 harg5 arg6 harg6 arg7 harg7) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body in case B, on whole memrefs. -/
noncomputable def kernelRun3_B (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : ¬cond3_1 i)
    (x0 x1 x2 : Vec F S1x512x1024 .f32) (xs0 : Vec F S512x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__attn_kernel i arg3 harg3 arg4 harg4 arg5 harg5 arg6 harg6 arg7 harg7) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body in case C, on whole memrefs. -/
noncomputable def kernelRun3_C (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : cond3_1 i)
    (x0 x1 x2 : Vec F S1x512x1024 .f32) (xs0 : Vec F S512x1024 .f32) :
    Σ' (L3 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc3__attn_kernel i arg3 harg3 arg4 harg4 arg5 harg5 arg6 harg6 arg7 harg7) K } := by
  refine ⟨?_, ?_, fun E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves -/

/-- Case A stores nothing into the result buffer (the window is idle there and not written back): no pieces, a
    placeholder nothing reads. -/
def out3_A_3 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : cond3_0 i) (hc1 : ¬cond3_1 i)
    (x0 x1 x2 : Vec F S1x512x1024 .f32) : Vec F S1x512x1024 .f32 :=
  VO3_3.read (Elt F) (VO3_3.writes (Elt F) VO3_3.junk (kernelRun3_A c i arg3 harg3 arg4 harg4 arg5 harg5 arg6 harg6 arg7 harg7 hc0 hc1 x0 x1 x2).1)

/-- Case A's stores into the accumulator cover it. -/
theorem scover3_A_0 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : cond3_0 i) (hc1 : ¬cond3_1 i)
    (x0 x1 x2 : Vec F S1x512x1024 .f32) (y : S512x1024.Idx) :
    ∃ pc ∈ (kernelRun3_A c i arg3 harg3 arg4 harg4 arg5 harg5 arg6 harg6 arg7 harg7 hc0 hc1 x0 x1 x2).2.1, y ∈ pc.1.set :=
  View.cover_of_tiledL (kernelRun3_A c i arg3 harg3 arg4 harg4 arg5 harg5 arg6 harg6 arg7 harg7 hc0 hc1 x0 x1 x2).2.1 S512x1024.size (by sl_kernel_rfl) y

/-- What case A leaves in the accumulator: its pieces read back over junk. -/
def sout3_A_0 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : cond3_0 i) (hc1 : ¬cond3_1 i)
    (x0 x1 x2 : Vec F S1x512x1024 .f32) : Vec F S512x1024 .f32 :=
  VS3_0.read (Elt F) (VS3_0.writes (Elt F) VS3_0.junk (kernelRun3_A c i arg3 harg3 arg4 harg4 arg5 harg5 arg6 harg6 arg7 harg7 hc0 hc1 x0 x1 x2).2.1)

/-- Case B stores nothing into the result buffer (the window is idle there and not written back): no pieces, a
    placeholder nothing reads. -/
def out3_B_3 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : ¬cond3_1 i)
    (x0 x1 x2 : Vec F S1x512x1024 .f32) (xs0 : Vec F S512x1024 .f32) : Vec F S1x512x1024 .f32 :=
  VO3_3.read (Elt F) (VO3_3.writes (Elt F) VO3_3.junk (kernelRun3_B c i arg3 harg3 arg4 harg4 arg5 harg5 arg6 harg6 arg7 harg7 hc0 hc1 x0 x1 x2 xs0).1)

/-- Case B's stores into the accumulator cover it. -/
theorem scover3_B_0 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : ¬cond3_1 i)
    (x0 x1 x2 : Vec F S1x512x1024 .f32) (xs0 : Vec F S512x1024 .f32) (y : S512x1024.Idx) :
    ∃ pc ∈ (kernelRun3_B c i arg3 harg3 arg4 harg4 arg5 harg5 arg6 harg6 arg7 harg7 hc0 hc1 x0 x1 x2 xs0).2.1, y ∈ pc.1.set :=
  View.cover_of_tiledL (kernelRun3_B c i arg3 harg3 arg4 harg4 arg5 harg5 arg6 harg6 arg7 harg7 hc0 hc1 x0 x1 x2 xs0).2.1 S512x1024.size (by sl_kernel_rfl) y

/-- What case B leaves in the accumulator: its pieces read back over junk. -/
def sout3_B_0 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : ¬cond3_1 i)
    (x0 x1 x2 : Vec F S1x512x1024 .f32) (xs0 : Vec F S512x1024 .f32) : Vec F S512x1024 .f32 :=
  VS3_0.read (Elt F) (VS3_0.writes (Elt F) VS3_0.junk (kernelRun3_B c i arg3 harg3 arg4 harg4 arg5 harg5 arg6 harg6 arg7 harg7 hc0 hc1 x0 x1 x2 xs0).2.1)

/-- Case C's one store into the result buffer covers it. -/
theorem cover3_C_3 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : cond3_1 i)
    (x0 x1 x2 : Vec F S1x512x1024 .f32) (xs0 : Vec F S512x1024 .f32) (y : S1x512x1024.Idx) :
    ∃ pc ∈ (kernelRun3_C c i arg3 harg3 arg4 harg4 arg5 harg5 arg6 harg6 arg7 harg7 hc0 hc1 x0 x1 x2 xs0).1, y ∈ pc.1.set :=
  View.cover_of_tiledL (kernelRun3_C c i arg3 harg3 arg4 harg4 arg5 harg5 arg6 harg6 arg7 harg7 hc0 hc1 x0 x1 x2 xs0).1 S1x512x1024.size (by sl_kernel_rfl) y

/-- What case C leaves in the result window's buffer: its pieces read back over junk. -/
def out3_C_3 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : cond3_1 i)
    (x0 x1 x2 : Vec F S1x512x1024 .f32) (xs0 : Vec F S512x1024 .f32) : Vec F S1x512x1024 .f32 :=
  VO3_3.read (Elt F) (VO3_3.writes (Elt F) VO3_3.junk (kernelRun3_C c i arg3 harg3 arg4 harg4 arg5 harg5 arg6 harg6 arg7 harg7 hc0 hc1 x0 x1 x2 xs0).1)

/-- Case C's stores into the accumulator cover it. -/
theorem scover3_C_0 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : cond3_1 i)
    (x0 x1 x2 : Vec F S1x512x1024 .f32) (xs0 : Vec F S512x1024 .f32) (y : S512x1024.Idx) :
    ∃ pc ∈ (kernelRun3_C c i arg3 harg3 arg4 harg4 arg5 harg5 arg6 harg6 arg7 harg7 hc0 hc1 x0 x1 x2 xs0).2.1, y ∈ pc.1.set :=
  View.cover_of_tiledL (kernelRun3_C c i arg3 harg3 arg4 harg4 arg5 harg5 arg6 harg6 arg7 harg7 hc0 hc1 x0 x1 x2 xs0).2.1 S512x1024.size (by sl_kernel_rfl) y

/-- What case C leaves in the accumulator: its pieces read back over junk. -/
def sout3_C_0 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : cond3_1 i)
    (x0 x1 x2 : Vec F S1x512x1024 .f32) (xs0 : Vec F S512x1024 .f32) : Vec F S512x1024 .f32 :=
  VS3_0.read (Elt F) (VS3_0.writes (Elt F) VS3_0.junk (kernelRun3_C c i arg3 harg3 arg4 harg4 arg5 harg5 arg6 harg6 arg7 harg7 hc0 hc1 x0 x1 x2 xs0).2.1)

/-! ## What the result buffer and the accumulator hold after each point -/

/-- The accumulation: the result window's buffer and the accumulator after the body at position `n`: the case the
    closed forms select there, run at the point's memrefs and blocks, the accumulator coming in (cases B, C) at what
    position `n - 1` left. -/
def outsAt3 (c : Dev nD) : (n : ℕ) → n < cfg3.N → Vec F S1x512x1024 .f32 × Vec F S512x1024 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 4 = 0 then
      if h1 : (n + 1) % 4 = 3 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 4 = 3 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point of case A. -/
theorem outsAt3_A (c : Dev nD) (t : Fin cfg3.N) (h0 : t.val % 4 = 0) (h1 : ¬t.val % 4 = 3) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point of case B: over what the point before left in the accumulator. -/
theorem outsAt3_B (c : Dev nD) (t : Fin cfg3.N) (h0 : ¬t.val % 4 = 0) (h1 : ¬t.val % 4 = 3) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: over what the point before left in the accumulator. -/
theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the region's entry invariant; after point `n` the accumulator at what that point left, the
    other scoped buffers at some contents, the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ restBut3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ restBut3 (F := F) c) ∗ (∃ r, prngReg c r)) := by
  cases n with
  | zero => exact absurd rfl hz
  | succ n => rfl

/-! ## The region's proof data -/

/-- On core `c`: the arrays as the region finds them; after the body at point `t` each input's buffer at its block and
    the result's at `outsAt3`'s first component; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' buffers hold their blocks; the closed forms say which case the point is in; the
    invariant hands the body the accumulator (at anything at the first point, else at what the point before left) and
    takes it back at this point's contents; the other scoped buffers and the core's dues pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 4 = 0
  · by_cases h1 : t.val % 4 = 3
    · exfalso; omega
    · rw [Dat.leavesExact_idle (dat3 V c) 3 t (idleAt3_3 t (fun h => h1 ((hcond3_1 t).mp h))) (noFlush3_3 t (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 4 = 3
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold out3_C_3 sout3_C_0; (try dsimp only)
      have hz : t.val ≠ 0 := fun hz => h0 (by rw [hz])
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B_0; (try dsimp only)
      have hz : t.val ≠ 0 := fun hz => h0 (by rw [hz])
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The body obligation at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the entry invariant back: the accumulator's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Cert.Kernel.Gen.Hand

end
-- ==== Proof.K.Run.lean ====
import proofs.«101586_j4587025072774_1_alg».proof.Proof.K.Lin0
import proofs.«101586_j4587025072774_1_alg».proof.Proof.K.Lin1
import proofs.«101586_j4587025072774_1_alg».proof.Proof.K.Lin2
import proofs.«101586_j4587025072774_1_alg».proof.Proof.K.Attn
import proofs.«101586_j4587025072774_1_alg».proof.Proof.Gen.Kernel.Regions

/-!
# The run of the whole program: three projections, then the attention region

The program is four stretches of reshapes, each followed by a kernel region. The contents of the core's
buffers are followed boundary by boundary: a stretch of reshapes applies its operations to the contents before it;
a region leaves each of its windows' arrays at what its write-backs fold to and every other buffer as it found it.
Every weakly fair execution terminates, and the final memory holds, buffer by buffer, the last boundary's contents:
each argument as launched, and the result array at what the attention region's write-backs leave.
-/

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the reshapes before region 0. -/
abbrev W1 : Dev nD → Valuation τ sig (Elt F) := fun c => StableHlo.after hostOps0 (W0 m c)
/-- The same read at the core's references: what region 0 finds. -/
abbrev X1 : (c : Dev nD) → (b : Ref sig .tc) → Buf (Elt F) ((c : Thread nD τ).loc b) := fun c b => W1 m c b
/-- After region 0: its windows' arrays at what the write-backs fold to, every other buffer as found. -/
def W2 (c : Dev nD) : Valuation τ sig (Elt F) :=
  Pipeline.withArrays spec0 c (W1 m c) fun w => (dat0 (X1 m) c).arrAt w cfg0.N
theorem W2_arr (c : Dev nD) (w : Fin cfg0.W) :
    W2 m c (Proc.devRef .tc (Pipeline.arrRef spec0 w)) = (dat0 (X1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (dat0 (X1 m) c).arrAt w cfg0.N = X2 m c (Pipeline.arrRef spec0 w) :=
  (W2_arr m c w).symm
theorem hrest0 (c : Dev nD) : ∀ b, b ∉ Finset.univ.image (Pipeline.arrRef spec0) → X2 m c b = X1 m c b :=
  fun b hb => W2_of_ne m c b fun w e => hb (Finset.mem_image.mpr ⟨w, Finset.mem_univ _, e⟩)
/-- A region changes none of its input arrays and no buffer outside its windows: only its result array moves. -/
theorem W2_keep (c : Dev nD) (b : Ref sig .tc) (hb : b ≠ main_v4) :
    W2 m c (Proc.devRef .tc b) = W1 m c (Proc.devRef .tc b) := by
  by_cases h0 : b = main_v0
  · subst h0; exact (W2_arr m c 0).trans (((dat0 (X1 m) c).arrAt_in 0 rfl _).trans (A_eq0 (X1 m) c 0))
  by_cases h1 : b = main_arg3
  · subst h1; exact (W2_arr m c 1).trans (((dat0 (X1 m) c).arrAt_in 1 rfl _).trans (A_eq0 (X1 m) c 1))
  by_cases h2 : b = main_v3
  · subst h2; exact (W2_arr m c 2).trans (((dat0 (X1 m) c).arrAt_in 2 rfl _).trans (A_eq0 (X1 m) c 2))
  exact W2_of_ne m c b fun w e => by
    fin_cases w
    · exact h0 e.symm
    · exact h1 e.symm
    · exact h2 e.symm
    · exact hb e.symm
/-- A stretch of reshapes changes only the buffers it writes. -/
theorem W1_keep (c : Dev nD) (b : Ref sig .tc) (hb : b ∉ hostOps0_W) :
    W1 m c (Proc.devRef .tc b) = W0 m c (Proc.devRef .tc b) :=
  StableHlo.after_of_writes_sub hostOps0 _ hostOps0_writes hb

/-- After the reshapes before region 1. -/
abbrev W3 : Dev nD → Valuation τ sig (Elt F) := fun c => StableHlo.after hostOps1 (W2 m c)
/-- The same read at the core's references: what region 1 finds. -/
abbrev X3 : (c : Dev nD) → (b : Ref sig .tc) → Buf (Elt F) ((c : Thread nD τ).loc b) := fun c b => W3 m c b
/-- After region 1: its windows' arrays at what the write-backs fold to, every other buffer as found. -/
def W4 (c : Dev nD) : Valuation τ sig (Elt F) :=
  Pipeline.withArrays spec1 c (W3 m c) fun w => (dat1 (X3 m) c).arrAt w cfg1.N
theorem W4_arr (c : Dev nD) (w : Fin cfg1.W) :
    W4 m c (Proc.devRef .tc (Pipeline.arrRef spec1 w)) = (dat1 (X3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev X4 : (c : Dev nD) → (b : Ref sig .tc) → Buf (Elt F) ((c : Thread nD τ).loc b) := fun c b => W4 m c b
theorem hF1 (c : Dev nD) (w : Fin cfg1.W) : (dat1 (X3 m) c).arrAt w cfg1.N = X4 m c (Pipeline.arrRef spec1 w) :=
  (W4_arr m c w).symm
theorem hrest1 (c : Dev nD) : ∀ b, b ∉ Finset.univ.image (Pipeline.arrRef spec1) → X4 m c b = X3 m c b :=
  fun b hb => W4_of_ne m c b fun w e => hb (Finset.mem_image.mpr ⟨w, Finset.mem_univ _, e⟩)
/-- A region changes none of its input arrays and no buffer outside its windows: only its result array moves. -/
theorem W4_keep (c : Dev nD) (b : Ref sig .tc) (hb : b ≠ main_v7) :
    W4 m c (Proc.devRef .tc b) = W3 m c (Proc.devRef .tc b) := by
  by_cases h0 : b = main_v1
  · subst h0; exact (W4_arr m c 0).trans (((dat1 (X3 m) c).arrAt_in 0 rfl _).trans (A_eq1 (X3 m) c 0))
  by_cases h1 : b = main_arg5
  · subst h1; exact (W4_arr m c 1).trans (((dat1 (X3 m) c).arrAt_in 1 rfl _).trans (A_eq1 (X3 m) c 1))
  by_cases h2 : b = main_v6
  · subst h2; exact (W4_arr m c 2).trans (((dat1 (X3 m) c).arrAt_in 2 rfl _).trans (A_eq1 (X3 m) c 2))
  exact W4_of_ne m c b fun w e => by
    fin_cases w
    · exact h0 e.symm
    · exact h1 e.symm
    · exact h2 e.symm
    · exact hb e.symm
/-- A stretch of reshapes changes only the buffers it writes. -/
theorem W3_keep (c : Dev nD) (b : Ref sig .tc) (hb : b ∉ hostOps1_W) :
    W3 m c (Proc.devRef .tc b) = W2 m c (Proc.devRef .tc b) :=
  StableHlo.after_of_writes_sub hostOps1 _ hostOps1_writes hb

/-- After the reshapes before region 2. -/
abbrev W5 : Dev nD → Valuation τ sig (Elt F) := fun c => StableHlo.after hostOps2 (W4 m c)
/-- The same read at the core's references: what region 2 finds. -/
abbrev X5 : (c : Dev nD) → (b : Ref sig .tc) → Buf (Elt F) ((c : Thread nD τ).loc b) := fun c b => W5 m c b
/-- After region 2: its windows' arrays at what the write-backs fold to, every other buffer as found. -/
def W6 (c : Dev nD) : Valuation τ sig (Elt F) :=
  Pipeline.withArrays spec2 c (W5 m c) fun w => (dat2 (X5 m) c).arrAt w cfg2.N
theorem W6_arr (c : Dev nD) (w : Fin cfg2.W) :
    W6 m c (Proc.devRef .tc (Pipeline.arrRef spec2 w)) = (dat2 (X5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev X6 : (c : Dev nD) → (b : Ref sig .tc) → Buf (Elt F) ((c : Thread nD τ).loc b) := fun c b => W6 m c b
theorem hF2 (c : Dev nD) (w : Fin cfg2.W) : (dat2 (X5 m) c).arrAt w cfg2.N = X6 m c (Pipeline.arrRef spec2 w) :=
  (W6_arr m c w).symm
theorem hrest2 (c : Dev nD) : ∀ b, b ∉ Finset.univ.image (Pipeline.arrRef spec2) → X6 m c b = X5 m c b :=
  fun b hb => W6_of_ne m c b fun w e => hb (Finset.mem_image.mpr ⟨w, Finset.mem_univ _, e⟩)
/-- A region changes none of its input arrays and no buffer outside its windows: only its result array moves. -/
theorem W6_keep (c : Dev nD) (b : Ref sig .tc) (hb : b ≠ main_v10) :
    W6 m c (Proc.devRef .tc b) = W5 m c (Proc.devRef .tc b) := by
  by_cases h0 : b = main_v2
  · subst h0; exact (W6_arr m c 0).trans (((dat2 (X5 m) c).arrAt_in 0 rfl _).trans (A_eq2 (X5 m) c 0))
  by_cases h1 : b = main_arg7
  · subst h1; exact (W6_arr m c 1).trans (((dat2 (X5 m) c).arrAt_in 1 rfl _).trans (A_eq2 (X5 m) c 1))
  by_cases h2 : b = main_v9
  · subst h2; exact (W6_arr m c 2).trans (((dat2 (X5 m) c).arrAt_in 2 rfl _).trans (A_eq2 (X5 m) c 2))
  exact W6_of_ne m c b fun w e => by
    fin_cases w
    · exact h0 e.symm
    · exact h1 e.symm
    · exact h2 e.symm
    · exact hb e.symm
/-- A stretch of reshapes changes only the buffers it writes. -/
theorem W5_keep (c : Dev nD) (b : Ref sig .tc) (hb : b ∉ hostOps2_W) :
    W5 m c (Proc.devRef .tc b) = W4 m c (Proc.devRef .tc b) :=
  StableHlo.after_of_writes_sub hostOps2 _ hostOps2_writes hb

/-- After the reshapes before region 3. -/
abbrev W7 : Dev nD → Valuation τ sig (Elt F) := fun c => StableHlo.after hostOps3 (W6 m c)
/-- The same read at the core's references: what region 3 finds. -/
abbrev X7 : (c : Dev nD) → (b : Ref sig .tc) → Buf (Elt F) ((c : Thread nD τ).loc b) := fun c b => W7 m c b
/-- After region 3: its windows' arrays at what the write-backs fold to, every other buffer as found. -/
def W8 (c : Dev nD) : Valuation τ sig (Elt F) :=
  Pipeline.withArrays spec3 c (W7 m c) fun w => (dat3 (X7 m) c).arrAt w cfg3.N
theorem W8_arr (c : Dev nD) (w : Fin cfg3.W) :
    W8 m c (Proc.devRef .tc (Pipeline.arrRef spec3 w)) = (dat3 (X7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev X8 : (c : Dev nD) → (b : Ref sig .tc) → Buf (Elt F) ((c : Thread nD τ).loc b) := fun c b => W8 m c b
theorem hF3 (c : Dev nD) (w : Fin cfg3.W) : (dat3 (X7 m) c).arrAt w cfg3.N = X8 m c (Pipeline.arrRef spec3 w) :=
  (W8_arr m c w).symm
theorem hrest3 (c : Dev nD) : ∀ b, b ∉ Finset.univ.image (Pipeline.arrRef spec3) → X8 m c b = X7 m c b :=
  fun b hb => W8_of_ne m c b fun w e => hb (Finset.mem_image.mpr ⟨w, Finset.mem_univ _, e⟩)
/-- A region changes none of its input arrays and no buffer outside its windows: only its result array moves. -/
theorem W8_keep (c : Dev nD) (b : Ref sig .tc) (hb : b ≠ main_v12) :
    W8 m c (Proc.devRef .tc b) = W7 m c (Proc.devRef .tc b) := by
  by_cases h0 : b = main_v5
  · subst h0; exact (W8_arr m c 0).trans (((dat3 (X7 m) c).arrAt_in 0 rfl _).trans (A_eq3 (X7 m) c 0))
  by_cases h1 : b = main_v8
  · subst h1; exact (W8_arr m c 1).trans (((dat3 (X7 m) c).arrAt_in 1 rfl _).trans (A_eq3 (X7 m) c 1))
  by_cases h2 : b = main_v11
  · subst h2; exact (W8_arr m c 2).trans (((dat3 (X7 m) c).arrAt_in 2 rfl _).trans (A_eq3 (X7 m) c 2))
  exact W8_of_ne m c b fun w e => by
    fin_cases w
    · exact h0 e.symm
    · exact h1 e.symm
    · exact h2 e.symm
    · exact hb e.symm
/-- A stretch of reshapes changes only the buffers it writes. -/
theorem W7_keep (c : Dev nD) (b : Ref sig .tc) (hb : b ∉ hostOps3_W) :
    W7 m c (Proc.devRef .tc b) = W6 m c (Proc.devRef .tc b) :=
  StableHlo.after_of_writes_sub hostOps3 _ hostOps3_writes hb

/-! ## The arguments end as launched -/

/-- A buffer that no stretch of reshapes writes and that is no region's result array ends as launched. -/
theorem W8_launch (c : Dev nD) (b : Ref sig .tc) (h0 : b ∉ hostOps0_W) (h1 : b ∉ hostOps1_W) (h2 : b ∉ hostOps2_W) (h3 : b ∉ hostOps3_W)
    (r0 : b ≠ main_v4) (r1 : b ≠ main_v7) (r2 : b ≠ main_v10) (r3 : b ≠ main_v12) :
    W8 m c (Proc.devRef .tc b) = m ((c : Thread nD τ).loc b) :=
  (W8_keep m c b r3).trans <| (W7_keep m c b h3).trans <| (W6_keep m c b r2).trans <| (W5_keep m c b h2).trans <|
    (W4_keep m c b r1).trans <| (W3_keep m c b h1).trans <| (W2_keep m c b r0).trans <| (W1_keep m c b h0).trans rfl

/-- The result array ends at what the attention region's write-backs fold to. -/
theorem W8_result (c : Dev nD) : W8 m c (Proc.devRef .tc main_v12) = (dat3 (X7 m) c).arrAt 3 cfg3.N :=
  W8_arr m c 3

/-! ## The proof data of the four regions, and what rides beside the buffers -/

/-- Each region's proof data at the contents it is entered with. -/
def pdats : (p : Fin 4) → (c : Dev nD) → Dat τ (Elt F) Unit ℕ (UR sig nD τ) ℕ (Pipeline.pin (pcfgs (F := F)) adm p) c
  | ⟨0, _⟩ => fun c => dat0 (X1 m) c
  | ⟨1, _⟩ => fun c => dat1 (X3 m) c
  | ⟨2, _⟩ => fun c => dat2 (X5 m) c
  | ⟨3, _⟩ => fun c => dat3 (X7 m) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
/-- A stretch of reshapes as a segment of the run, from contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary: every unscoped buffer at the final contents, the generator register at some state. -/
abbrev Tₙ (c : Dev nD) : sProp 𝕄 := iprop(StableHlo.held (c : Thread nD τ) (Pipeline.ucRefs τ sig) (W8 m c) ∗ ∃ r, prngReg c r)

/-! ## The regions as segments of the run -/

set_option backward.isDefEq.respectTransparency.types false in
/-- Region 0 between the contents before it and after it: its arrays are split out of the core's buffers at entry and
    put back at the exit contents; the generator register goes into the region's invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents before it and after it: its arrays are split out of the core's buffers at entry and
    put back at the exit contents; the generator register goes into the region's invariant and comes back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (X3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X3 m c) (X4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents before it and after it: its arrays are split out of the core's buffers at entry and
    put back at the exit contents; the generator register goes into the region's invariant and comes back. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (X5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (X5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (X5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (X5 m c) (X6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 between the contents before it and after it: its arrays are split out of the core's buffers at entry and
    put back at the exit contents; the generator register goes into the region's invariant and comes back. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (X7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (X7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (X7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (X7 m) c)
    unfold Pipeline.ΦA
    iintro ⟨Hp, -, Hr⟩
    isplitl [Hr]; · iexact Hr
    iexact Hp
  hout c := by
    refine BIBase.Entails.trans (hout3 (X7 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (X7 m c) (X8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The eight segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- The program is the run of these segments. -/
theorem main_run (c : Dev nD) : main (F := F) c = Pipeline.Seg.run (segs m) := (main_chain c).trans (by chain_rfl)

set_option backward.isDefEq.respectTransparency.types false in
/-- From any memory with every counter at zero, every weakly fair execution of the program terminates, nothing faults,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W8_launch m c main_arg0 (by decide) (by decide) (by decide) (by decide) (by decide) (by decide) (by decide) (by decide)),
     (h c _ (mem_uc main_arg1 (by decide))).trans (W8_launch m c main_arg1 (by decide) (by decide) (by decide) (by decide) (by decide) (by decide) (by decide) (by decide)),
     (h c _ (mem_uc main_arg2 (by decide))).trans (W8_launch m c main_arg2 (by decide) (by decide) (by decide) (by decide) (by decide) (by decide) (by decide) (by decide)),
     (h c _ (mem_uc main_arg3 (by decide))).trans (W8_launch m c main_arg3 (by decide) (by decide) (by decide) (by decide) (by decide) (by decide) (by decide) (by decide)),
     (h c _ (mem_uc main_arg4 (by decide))).trans (W8_launch m c main_arg4 (by decide) (by decide) (by decide) (by decide) (by decide) (by decide) (by decide) (by decide)),
     (h c _ (mem_uc main_arg5 (by decide))).trans (W8_launch m c main_arg5 (by decide) (by decide) (by decide) (by decide) (by decide) (by decide) (by decide) (by decide)),
     (h c _ (mem_uc main_arg6 (by decide))).trans (W8_launch m c main_arg6 (by decide) (by decide) (by decide) (by decide) (by decide) (by decide) (by decide) (by decide)),
     (h c _ (mem_uc main_arg7 (by decide))).trans (W8_launch m c main_arg7 (by decide) (by decide) (by decide) (by decide) (by decide) (by decide) (by decide) (by decide)),
     (h c _ (mem_uc main_arg8 (by decide))).trans (W8_launch m c main_arg8 (by decide) (by decide) (by decide) (by decide) (by decide) (by decide) (by decide) (by decide))⟩)
    (run_all m ρ)

end Cert.Kernel.Gen.Hand

end
-- ==== Proof.KI.Lin0.lean ====
import proofs.«101586_j4587025072774_1_alg».proof.Proof.Gen.KernelIdeal.Launch
import proofs.«101586_j4587025072774_1_alg».proof.Proof.Gen.KernelIdeal.Skeleton
import proofs.«101586_j4587025072774_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Projection region 0: one grid point computes 512 rows of  y = x · wᵀ + b

The region walks 16 grid points; point t stages rows 512·t … 512·t + 511 of the activations (window 0),
the whole weight matrix (window 1) and the bias row (window 2), and writes the 512 × 1024 result block
(window 3) back to rows 512·t … of the output. Stated at any entry contents `V` of the core's buffers:
what each window's buffer holds when the body starts, the body's one store as a function of the three
loaded blocks, and that the body at every point takes the former to the latter.
-/

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether the point fetched it or the index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each of the four buffers whole. -/
abbrev rx0 : Rect S512x1024 := Rect.unit (s := S512x1024) ![0, 0] S512x1024.size inb_S512x1024_S512x1024_0_0
abbrev rw0 : Rect S1024x1024 := Rect.unit (s := S1024x1024) ![0, 0] S1024x1024.size inb_S1024x1024_S1024x1024_0_0
abbrev rb0 : Rect S1x1024 := Rect.unit (s := S1x1024) ![0, 0] S1x1024.size inb_S1x1024_S1x1024_0_0

/-- What the body leaves in the result window's buffer: its one store, of the product-plus-bias payload of the three loads. -/
def out0_3 (x0 : Vec F S512x1024 .f32) (x1 : Vec F S1024x1024 .f32) (x2 : Vec F S1x1024 .f32) : Vec F S512x1024 .f32 :=
  View.canon [⟨rx0, k0_pay1 (View.ld x0 rx0) (View.ld x1 rw0) (View.ld x2 rb0)⟩]

/-- The one store covers the buffer. -/
theorem cover0_3 (p0 : Vec F S512x1024 .f32) (y : S512x1024.Idx) :
    ∃ pc ∈ ([⟨rx0, p0⟩] : List (View.Piece (Elt F) S512x1024 .f32)), y ∈ pc.1.set :=
  View.cover_of_tiled [⟨rx0, p0⟩] S512x1024.size (by rfl) y

set_option maxHeartbeats 1000000 in
/-- The body on whole staging memrefs: the three inputs at read contents, the result buffer at anything, runs to the
    continuation with the inputs as they were and the result buffer at `out0_3` of them. -/
theorem sound_kernel0 (c : Dev nD) (E : Set ℕ) (i : grid0.Coords) (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at point `t` each input's
    buffer at its block and the result's at `out0_3` of the three blocks; nothing carried between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies; the invariant and the
    core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen.Hand

end
-- ==== Proof.KI.Lin1.lean ====
import proofs.«101586_j4587025072774_1_alg».proof.Proof.Gen.KernelIdeal.Launch
import proofs.«101586_j4587025072774_1_alg».proof.Proof.Gen.KernelIdeal.Skeleton
import proofs.«101586_j4587025072774_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Projection region 1: one grid point computes 512 rows of  y = x · wᵀ + b

The region walks 16 grid points; point t stages rows 512·t … 512·t + 511 of the activations (window 0),
the whole weight matrix (window 1) and the bias row (window 2), and writes the 512 × 1024 result block
(window 3) back to rows 512·t … of the output. Stated at any entry contents `V` of the core's buffers:
what each window's buffer holds when the body starts, the body's one store as a function of the three
loaded blocks, and that the body at every point takes the former to the latter.
-/

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, whether the point fetched it or the index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each of the four buffers whole. -/
abbrev rx1 : Rect S512x1024 := Rect.unit (s := S512x1024) ![0, 0] S512x1024.size inb_S512x1024_S512x1024_0_0
abbrev rw1 : Rect S1024x1024 := Rect.unit (s := S1024x1024) ![0, 0] S1024x1024.size inb_S1024x1024_S1024x1024_0_0
abbrev rb1 : Rect S1x1024 := Rect.unit (s := S1x1024) ![0, 0] S1x1024.size inb_S1x1024_S1x1024_0_0

/-- What the body leaves in the result window's buffer: its one store, of the product-plus-bias payload of the three loads. -/
def out1_3 (x0 : Vec F S512x1024 .f32) (x1 : Vec F S1024x1024 .f32) (x2 : Vec F S1x1024 .f32) : Vec F S512x1024 .f32 :=
  View.canon [⟨rx1, k1_pay1 (View.ld x0 rx1) (View.ld x1 rw1) (View.ld x2 rb1)⟩]

/-- The one store covers the buffer. -/
theorem cover1_3 (p0 : Vec F S512x1024 .f32) (y : S512x1024.Idx) :
    ∃ pc ∈ ([⟨rx1, p0⟩] : List (View.Piece (Elt F) S512x1024 .f32)), y ∈ pc.1.set :=
  View.cover_of_tiled [⟨rx1, p0⟩] S512x1024.size (by rfl) y

set_option maxHeartbeats 1000000 in
/-- The body on whole staging memrefs: the three inputs at read contents, the result buffer at anything, runs to the
    continuation with the inputs as they were and the result buffer at `out1_3` of them. -/
theorem sound_kernel1 (c : Dev nD) (E : Set ℕ) (i : grid1.Coords) (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data on core `c`: the arrays as the region finds them; after the body at point `t` each input's
    buffer at its block and the result's at `out1_3` of the three blocks; nothing carried between points, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's run applies; the invariant and the
    core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen.Hand

end
-- ==== Proof.KI.Lin2.lean ====
import proofs.«101586_j4587025072774_1_alg».proof.Proof.Gen.KernelIdeal.Launch
import proofs.«101586_j4587025072774_1_alg».proof.Proof.Gen.KernelIdeal.Skeleton
import proofs.«101586_j4587025072774_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Projection region 2: one grid point computes 512 rows of  y = x · wᵀ + b

The region walks 16 grid points; point t stages rows 512·t … 512·t + 511 of the activations (window 0),
the whole weight matrix (window 1) and the bias row (window 2), and writes the 512 × 1024 result block
(window 3) back to rows 512·t … of the output. Stated at any entry contents `V` of the core's buffers:
what each window's buffer holds when the body starts, the body's one store as a function of the three
loaded blocks, and that the body at every point takes the former to the latter.
-/

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, whether the point fetched it or the index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each of the four buffers whole. -/
abbrev rx2 : Rect S512x1024 := Rect.unit (s := S512x1024) ![0, 0] S512x1024.size inb_S512x1024_S512x1024_0_0
abbrev rw2 : Rect S1024x1024 := Rect.unit (s := S1024x1024) ![0, 0] S1024x1024.size inb_S1024x1024_S1024x1024_0_0
abbrev rb2 : Rect S1x1024 := Rect.unit (s := S1x1024) ![0, 0] S1x1024.size inb_S1x1024_S1x1024_0_0

/-- What the body leaves in the result window's buffer: its one store, of the product-plus-bias payload of the three loads. -/
def out2_3 (x0 : Vec F S512x1024 .f32) (x1 : Vec F S1024x1024 .f32) (x2 : Vec F S1x1024 .f32) : Vec F S512x1024 .f32 :=
  View.canon [⟨rx2, k2_pay1 (View.ld x0 rx2) (View.ld x1 rw2) (View.ld x2 rb2)⟩]

/-- The one store covers the buffer. -/
theorem cover2_3 (p0 : Vec F S512x1024 .f32) (y : S512x1024.Idx) :
    ∃ pc ∈ ([⟨rx2, p0⟩] : List (View.Piece (Elt F) S512x1024 .f32)), y ∈ pc.1.set :=
  View.cover_of_tiled [⟨rx2, p0⟩] S512x1024.size (by rfl) y

set_option maxHeartbeats 1000000 in
/-- The body on whole staging memrefs: the three inputs at read contents, the result buffer at anything, runs to the
    continuation with the inputs as they were and the result buffer at `out2_3` of them. -/
theorem sound_kernel2 (c : Dev nD) (E : Set ℕ) (i : grid2.Coords) (arg1 : Memref sig .tc .vmem S512x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data on core `c`: the arrays as the region finds them; after the body at point `t` each input's
    buffer at its block and the result's at `out2_3` of the three blocks; nothing carried between points, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's run applies; the invariant and the
    core's dues pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen.Hand

end
-- ==== Proof.KI.Attn.lean ====
import proofs.«101586_j4587025072774_1_alg».proof.Proof.Gen.KernelIdeal.Launch
import proofs.«101586_j4587025072774_1_alg».proof.Proof.Gen.KernelIdeal.Skeleton
import proofs.«101586_j4587025072774_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Attention region: a grid of 4 × 4 × 4 points accumulating  relu(q · kᵀ) · v  over the key blocks

Point (b, i, j) stages the query block (b, i) (window 0, fetched when j = 0), the key block (b, j) and the value
block (b, j) (windows 1 and 2, fetched at every point), and adds bf16(relu(bf16 q · bf16 kᵀ)) · bf16 v to a
512 × 1024 accumulator the kernel keeps between points: zeroed at j = 0, and at j = 3 copied to the result
block (b, i) (window 3), which is written back there and idle elsewhere. Stated at any entry contents `V` of
the core's buffers: what each window's buffer holds when the body starts, what the body leaves in the result
buffer and in the accumulator as a function of the point's three blocks and the accumulator before, and that
the body at every point takes the former to the latter.
-/

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block at every point, whether the point fetched it or the index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two conditions of the body -/

/-- The first `scf.if`: the key-block coordinate is 0. -/
abbrev cond3_0 (i : grid3.Coords) : Prop := (Scalar.cmpi .ne (Scalar.extui (Scalar.cmpi .eq (BitVec.ofNat 32 (i 2).val) 0#32)) 0#32) = 1#1
/-- It holds at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- The second `scf.if`: the key-block coordinate is 3. -/
abbrev cond3_1 (i : grid3.Coords) : Prop := k3_cond2 i = 1#1
/-- It holds at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Where the second condition fails the result window is idle and not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- Where it holds the window is live. -/
theorem liveAt3_3 : ∀ t : Fin cfg3.N, cond3_1 (grid3.coords t) → cfg3.idle 3 (grid3.coords t) = false := by decide +kernel

/-! ## The memrefs the body is called on -/

/-- One staging buffer of the result window, through which its contents are stated. -/
abbrev VO3_3 : View sig .tc .vmem S1x512x1024 .f32 := (Memref.whole cc3_stg3_0 : Memref sig .tc .vmem S1x512x1024 .f32).view
abbrev ms3_0 (t : Fin cfg3.N) : Memref sig .tc .vmem S1x512x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x512x1024 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3_0 : Memref sig .tc .vmem S512x1024 .f32 := Memref.whole cc3_scratch0
abbrev VS3_0 : View sig .tc .vmem S512x1024 .f32 := scM3_0.view

/-- The core's scoped buffers that are neither a staging buffer of this region nor the accumulator, at some contents each. -/
abbrev restBut3 (c : Dev nD) : sProp 𝕄 :=
  Pipeline.scopedRestBut (Ix := Unit) (Name := ℕ) (U := UR sig nD τ) (Lvl := ℕ) (Val := Elt F) spec3 c [cc3_scratch0]

/-- The region's entry invariant with the accumulator split off the scoped rest as a memref owned at some contents. -/
theorem PhiA3_eq (c : Dev nD) :
    (Pipeline.ΦA spec3 c : sProp 𝕄)
      = iprop(iprop((∃ d, owns (c : Thread nD τ) scM3_0 fullShare d) ∗ restBut3 (F := F) c) ∗ (∃ r, prngReg c r)) := by
  unfold Pipeline.ΦA
  rw [Pipeline.scopedRest_split_of_list spec3 c [cc3_scratch0] (by decide) (List.nodup_singleton _)]
  simp only [bigSepL_singleton, scM3_0, owns_whole]; try rfl

/-! ## The body on any whole memrefs, case by case -/

set_option maxHeartbeats 1000000 in
/-- The body in case A, on whole memrefs. -/
noncomputable def kernelRun3_A (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : cond3_0 i) (hc1 : ¬cond3_1 i)
    (x0 x1 x2 : Vec F S1x512x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__attn_kernel i arg3 harg3 arg4 harg4 arg5 harg5 arg6 harg6 arg7 harg7) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body in case B, on whole memrefs. -/
noncomputable def kernelRun3_B (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : ¬cond3_1 i)
    (x0 x1 x2 : Vec F S1x512x1024 .f32) (xs0 : Vec F S512x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__attn_kernel i arg3 harg3 arg4 harg4 arg5 harg5 arg6 harg6 arg7 harg7) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The body in case C, on whole memrefs. -/
noncomputable def kernelRun3_C (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : cond3_1 i)
    (x0 x1 x2 : Vec F S1x512x1024 .f32) (xs0 : Vec F S512x1024 .f32) :
    Σ' (L3 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc3__attn_kernel i arg3 harg3 arg4 harg4 arg5 harg5 arg6 harg6 arg7 harg7) K } := by
  refine ⟨?_, ?_, fun E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves -/

/-- Case A stores nothing into the result buffer (the window is idle there and not written back): no pieces, a
    placeholder nothing reads. -/
def out3_A_3 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : cond3_0 i) (hc1 : ¬cond3_1 i)
    (x0 x1 x2 : Vec F S1x512x1024 .f32) : Vec F S1x512x1024 .f32 :=
  VO3_3.read (Elt F) (VO3_3.writes (Elt F) VO3_3.junk (kernelRun3_A c i arg3 harg3 arg4 harg4 arg5 harg5 arg6 harg6 arg7 harg7 hc0 hc1 x0 x1 x2).1)

/-- Case A's stores into the accumulator cover it. -/
theorem scover3_A_0 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : cond3_0 i) (hc1 : ¬cond3_1 i)
    (x0 x1 x2 : Vec F S1x512x1024 .f32) (y : S512x1024.Idx) :
    ∃ pc ∈ (kernelRun3_A c i arg3 harg3 arg4 harg4 arg5 harg5 arg6 harg6 arg7 harg7 hc0 hc1 x0 x1 x2).2.1, y ∈ pc.1.set :=
  View.cover_of_tiledL (kernelRun3_A c i arg3 harg3 arg4 harg4 arg5 harg5 arg6 harg6 arg7 harg7 hc0 hc1 x0 x1 x2).2.1 S512x1024.size (by sl_kernel_rfl) y

/-- What case A leaves in the accumulator: its pieces read back over junk. -/
def sout3_A_0 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : cond3_0 i) (hc1 : ¬cond3_1 i)
    (x0 x1 x2 : Vec F S1x512x1024 .f32) : Vec F S512x1024 .f32 :=
  VS3_0.read (Elt F) (VS3_0.writes (Elt F) VS3_0.junk (kernelRun3_A c i arg3 harg3 arg4 harg4 arg5 harg5 arg6 harg6 arg7 harg7 hc0 hc1 x0 x1 x2).2.1)

/-- Case B stores nothing into the result buffer (the window is idle there and not written back): no pieces, a
    placeholder nothing reads. -/
def out3_B_3 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : ¬cond3_1 i)
    (x0 x1 x2 : Vec F S1x512x1024 .f32) (xs0 : Vec F S512x1024 .f32) : Vec F S1x512x1024 .f32 :=
  VO3_3.read (Elt F) (VO3_3.writes (Elt F) VO3_3.junk (kernelRun3_B c i arg3 harg3 arg4 harg4 arg5 harg5 arg6 harg6 arg7 harg7 hc0 hc1 x0 x1 x2 xs0).1)

/-- Case B's stores into the accumulator cover it. -/
theorem scover3_B_0 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : ¬cond3_1 i)
    (x0 x1 x2 : Vec F S1x512x1024 .f32) (xs0 : Vec F S512x1024 .f32) (y : S512x1024.Idx) :
    ∃ pc ∈ (kernelRun3_B c i arg3 harg3 arg4 harg4 arg5 harg5 arg6 harg6 arg7 harg7 hc0 hc1 x0 x1 x2 xs0).2.1, y ∈ pc.1.set :=
  View.cover_of_tiledL (kernelRun3_B c i arg3 harg3 arg4 harg4 arg5 harg5 arg6 harg6 arg7 harg7 hc0 hc1 x0 x1 x2 xs0).2.1 S512x1024.size (by sl_kernel_rfl) y

/-- What case B leaves in the accumulator: its pieces read back over junk. -/
def sout3_B_0 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : ¬cond3_1 i)
    (x0 x1 x2 : Vec F S1x512x1024 .f32) (xs0 : Vec F S512x1024 .f32) : Vec F S512x1024 .f32 :=
  VS3_0.read (Elt F) (VS3_0.writes (Elt F) VS3_0.junk (kernelRun3_B c i arg3 harg3 arg4 harg4 arg5 harg5 arg6 harg6 arg7 harg7 hc0 hc1 x0 x1 x2 xs0).2.1)

/-- Case C's one store into the result buffer covers it. -/
theorem cover3_C_3 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : cond3_1 i)
    (x0 x1 x2 : Vec F S1x512x1024 .f32) (xs0 : Vec F S512x1024 .f32) (y : S1x512x1024.Idx) :
    ∃ pc ∈ (kernelRun3_C c i arg3 harg3 arg4 harg4 arg5 harg5 arg6 harg6 arg7 harg7 hc0 hc1 x0 x1 x2 xs0).1, y ∈ pc.1.set :=
  View.cover_of_tiledL (kernelRun3_C c i arg3 harg3 arg4 harg4 arg5 harg5 arg6 harg6 arg7 harg7 hc0 hc1 x0 x1 x2 xs0).1 S1x512x1024.size (by sl_kernel_rfl) y

/-- What case C leaves in the result window's buffer: its pieces read back over junk. -/
def out3_C_3 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : cond3_1 i)
    (x0 x1 x2 : Vec F S1x512x1024 .f32) (xs0 : Vec F S512x1024 .f32) : Vec F S1x512x1024 .f32 :=
  VO3_3.read (Elt F) (VO3_3.writes (Elt F) VO3_3.junk (kernelRun3_C c i arg3 harg3 arg4 harg4 arg5 harg5 arg6 harg6 arg7 harg7 hc0 hc1 x0 x1 x2 xs0).1)

/-- Case C's stores into the accumulator cover it. -/
theorem scover3_C_0 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : cond3_1 i)
    (x0 x1 x2 : Vec F S1x512x1024 .f32) (xs0 : Vec F S512x1024 .f32) (y : S512x1024.Idx) :
    ∃ pc ∈ (kernelRun3_C c i arg3 harg3 arg4 harg4 arg5 harg5 arg6 harg6 arg7 harg7 hc0 hc1 x0 x1 x2 xs0).2.1, y ∈ pc.1.set :=
  View.cover_of_tiledL (kernelRun3_C c i arg3 harg3 arg4 harg4 arg5 harg5 arg6 harg6 arg7 harg7 hc0 hc1 x0 x1 x2 xs0).2.1 S512x1024.size (by sl_kernel_rfl) y

/-- What case C leaves in the accumulator: its pieces read back over junk. -/
def sout3_C_0 (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : cond3_1 i)
    (x0 x1 x2 : Vec F S1x512x1024 .f32) (xs0 : Vec F S512x1024 .f32) : Vec F S512x1024 .f32 :=
  VS3_0.read (Elt F) (VS3_0.writes (Elt F) VS3_0.junk (kernelRun3_C c i arg3 harg3 arg4 harg4 arg5 harg5 arg6 harg6 arg7 harg7 hc0 hc1 x0 x1 x2 xs0).2.1)

/-! ## What the result buffer and the accumulator hold after each point -/

/-- The accumulation: the result window's buffer and the accumulator after the body at position `n`: the case the
    closed forms select there, run at the point's memrefs and blocks, the accumulator coming in (cases B, C) at what
    position `n - 1` left. -/
def outsAt3 (c : Dev nD) : (n : ℕ) → n < cfg3.N → Vec F S1x512x1024 .f32 × Vec F S512x1024 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 4 = 0 then
      if h1 : (n + 1) % 4 = 3 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 4 = 3 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point of case A. -/
theorem outsAt3_A (c : Dev nD) (t : Fin cfg3.N) (h0 : t.val % 4 = 0) (h1 : ¬t.val % 4 = 3) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point of case B: over what the point before left in the accumulator. -/
theorem outsAt3_B (c : Dev nD) (t : Fin cfg3.N) (h0 : ¬t.val % 4 = 0) (h1 : ¬t.val % 4 = 3) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: over what the point before left in the accumulator. -/
theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the region's entry invariant; after point `n` the accumulator at what that point left, the
    other scoped buffers at some contents, the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ restBut3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ restBut3 (F := F) c) ∗ (∃ r, prngReg c r)) := by
  cases n with
  | zero => exact absurd rfl hz
  | succ n => rfl

/-! ## The region's proof data -/

/-- On core `c`: the arrays as the region finds them; after the body at point `t` each input's buffer at its block and
    the result's at `outsAt3`'s first component; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' buffers hold their blocks; the closed forms say which case the point is in; the
    invariant hands the body the accumulator (at anything at the first point, else at what the point before left) and
    takes it back at this point's contents; the other scoped buffers and the core's dues pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 4 = 0
  · by_cases h1 : t.val % 4 = 3
    · exfalso; omega
    · rw [Dat.leavesExact_idle (dat3 V c) 3 t (idleAt3_3 t (fun h => h1 ((hcond3_1 t).mp h))) (noFlush3_3 t (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 4 = 3
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold out3_C_3 sout3_C_0; (try dsimp only)
      have hz : t.val ≠ 0 := fun hz => h0 (by rw [hz])
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B_0; (try dsimp only)
      have hz : t.val ≠ 0 := fun hz => h0 (by rw [hz])
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The body obligation at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the entry invariant back: the accumulator's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Cert.KernelIdeal.Gen.Hand

end
-- ==== Proof.KI.Run.lean ====
import proofs.«101586_j4587025072774_1_alg».proof.Proof.KI.Lin0
import proofs.«101586_j4587025072774_1_alg».proof.Proof.KI.Lin1
import proofs.«101586_j4587025072774_1_alg».proof.Proof.KI.Lin2
import proofs.«101586_j4587025072774_1_alg».proof.Proof.KI.Attn
import proofs.«101586_j4587025072774_1_alg».proof.Proof.Gen.KernelIdeal.Regions

/-!
# The run of the whole program: three projections, then the attention region

The program is four stretches of reshapes, each followed by a kernel region. The contents of the core's
buffers are followed boundary by boundary: a stretch of reshapes applies its operations to the contents before it;
a region leaves each of its windows' arrays at what its write-backs fold to and every other buffer as it found it.
Every weakly fair execution terminates, and the final memory holds, buffer by buffer, the last boundary's contents:
each argument as launched, and the result array at what the attention region's write-backs leave.
-/

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the reshapes before region 0. -/
abbrev W1 : Dev nD → Valuation τ sig (Elt F) := fun c => StableHlo.after hostOps0 (W0 m c)
/-- The same read at the core's references: what region 0 finds. -/
abbrev X1 : (c : Dev nD) → (b : Ref sig .tc) → Buf (Elt F) ((c : Thread nD τ).loc b) := fun c b => W1 m c b
/-- After region 0: its windows' arrays at what the write-backs fold to, every other buffer as found. -/
def W2 (c : Dev nD) : Valuation τ sig (Elt F) :=
  Pipeline.withArrays spec0 c (W1 m c) fun w => (dat0 (X1 m) c).arrAt w cfg0.N
theorem W2_arr (c : Dev nD) (w : Fin cfg0.W) :
    W2 m c (Proc.devRef .tc (Pipeline.arrRef spec0 w)) = (dat0 (X1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (dat0 (X1 m) c).arrAt w cfg0.N = X2 m c (Pipeline.arrRef spec0 w) :=
  (W2_arr m c w).symm
theorem hrest0 (c : Dev nD) : ∀ b, b ∉ Finset.univ.image (Pipeline.arrRef spec0) → X2 m c b = X1 m c b :=
  fun b hb => W2_of_ne m c b fun w e => hb (Finset.mem_image.mpr ⟨w, Finset.mem_univ _, e⟩)
/-- A region changes none of its input arrays and no buffer outside its windows: only its result array moves. -/
theorem W2_keep (c : Dev nD) (b : Ref sig .tc) (hb : b ≠ main_v4) :
    W2 m c (Proc.devRef .tc b) = W1 m c (Proc.devRef .tc b) := by
  by_cases h0 : b = main_v0
  · subst h0; exact (W2_arr m c 0).trans (((dat0 (X1 m) c).arrAt_in 0 rfl _).trans (A_eq0 (X1 m) c 0))
  by_cases h1 : b = main_arg3
  · subst h1; exact (W2_arr m c 1).trans (((dat0 (X1 m) c).arrAt_in 1 rfl _).trans (A_eq0 (X1 m) c 1))
  by_cases h2 : b = main_v3
  · subst h2; exact (W2_arr m c 2).trans (((dat0 (X1 m) c).arrAt_in 2 rfl _).trans (A_eq0 (X1 m) c 2))
  exact W2_of_ne m c b fun w e => by
    fin_cases w
    · exact h0 e.symm
    · exact h1 e.symm
    · exact h2 e.symm
    · exact hb e.symm
/-- A stretch of reshapes changes only the buffers it writes. -/
theorem W1_keep (c : Dev nD) (b : Ref sig .tc) (hb : b ∉ hostOps0_W) :
    W1 m c (Proc.devRef .tc b) = W0 m c (Proc.devRef .tc b) :=
  StableHlo.after_of_writes_sub hostOps0 _ hostOps0_writes hb

/-- After the reshapes before region 1. -/
abbrev W3 : Dev nD → Valuation τ sig (Elt F) := fun c => StableHlo.after hostOps1 (W2 m c)
/-- The same read at the core's references: what region 1 finds. -/
abbrev X3 : (c : Dev nD) → (b : Ref sig .tc) → Buf (Elt F) ((c : Thread nD τ).loc b) := fun c b => W3 m c b
/-- After region 1: its windows' arrays at what the write-backs fold to, every other buffer as found. -/
def W4 (c : Dev nD) : Valuation τ sig (Elt F) :=
  Pipeline.withArrays spec1 c (W3 m c) fun w => (dat1 (X3 m) c).arrAt w cfg1.N
theorem W4_arr (c : Dev nD) (w : Fin cfg1.W) :
    W4 m c (Proc.devRef .tc (Pipeline.arrRef spec1 w)) = (dat1 (X3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev X4 : (c : Dev nD) → (b : Ref sig .tc) → Buf (Elt F) ((c : Thread nD τ).loc b) := fun c b => W4 m c b
theorem hF1 (c : Dev nD) (w : Fin cfg1.W) : (dat1 (X3 m) c).arrAt w cfg1.N = X4 m c (Pipeline.arrRef spec1 w) :=
  (W4_arr m c w).symm
theorem hrest1 (c : Dev nD) : ∀ b, b ∉ Finset.univ.image (Pipeline.arrRef spec1) → X4 m c b = X3 m c b :=
  fun b hb => W4_of_ne m c b fun w e => hb (Finset.mem_image.mpr ⟨w, Finset.mem_univ _, e⟩)
/-- A region changes none of its input arrays and no buffer outside its windows: only its result array moves. -/
theorem W4_keep (c : Dev nD) (b : Ref sig .tc) (hb : b ≠ main_v7) :
    W4 m c (Proc.devRef .tc b) = W3 m c (Proc.devRef .tc b) := by
  by_cases h0 : b = main_v1
  · subst h0; exact (W4_arr m c 0).trans (((dat1 (X3 m) c).arrAt_in 0 rfl _).trans (A_eq1 (X3 m) c 0))
  by_cases h1 : b = main_arg5
  · subst h1; exact (W4_arr m c 1).trans (((dat1 (X3 m) c).arrAt_in 1 rfl _).trans (A_eq1 (X3 m) c 1))
  by_cases h2 : b = main_v6
  · subst h2; exact (W4_arr m c 2).trans (((dat1 (X3 m) c).arrAt_in 2 rfl _).trans (A_eq1 (X3 m) c 2))
  exact W4_of_ne m c b fun w e => by
    fin_cases w
    · exact h0 e.symm
    · exact h1 e.symm
    · exact h2 e.symm
    · exact hb e.symm
/-- A stretch of reshapes changes only the buffers it writes. -/
theorem W3_keep (c : Dev nD) (b : Ref sig .tc) (hb : b ∉ hostOps1_W) :
    W3 m c (Proc.devRef .tc b) = W2 m c (Proc.devRef .tc b) :=
  StableHlo.after_of_writes_sub hostOps1 _ hostOps1_writes hb

/-- After the reshapes before region 2. -/
abbrev W5 : Dev nD → Valuation τ sig (Elt F) := fun c => StableHlo.after hostOps2 (W4 m c)
/-- The same read at the core's references: what region 2 finds. -/
abbrev X5 : (c : Dev nD) → (b : Ref sig .tc) → Buf (Elt F) ((c : Thread nD τ).loc b) := fun c b => W5 m c b
/-- After region 2: its windows' arrays at what the write-backs fold to, every other buffer as found. -/
def W6 (c : Dev nD) : Valuation τ sig (Elt F) :=
  Pipeline.withArrays spec2 c (W5 m c) fun w => (dat2 (X5 m) c).arrAt w cfg2.N
theorem W6_arr (c : Dev nD) (w : Fin cfg2.W) :
    W6 m c (Proc.devRef .tc (Pipeline.arrRef spec2 w)) = (dat2 (X5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev X6 : (c : Dev nD) → (b : Ref sig .tc) → Buf (Elt F) ((c : Thread nD τ).loc b) := fun c b => W6 m c b
theorem hF2 (c : Dev nD) (w : Fin cfg2.W) : (dat2 (X5 m) c).arrAt w cfg2.N = X6 m c (Pipeline.arrRef spec2 w) :=
  (W6_arr m c w).symm
theorem hrest2 (c : Dev nD) : ∀ b, b ∉ Finset.univ.image (Pipeline.arrRef spec2) → X6 m c b = X5 m c b :=
  fun b hb => W6_of_ne m c b fun w e => hb (Finset.mem_image.mpr ⟨w, Finset.mem_univ _, e⟩)
/-- A region changes none of its input arrays and no buffer outside its windows: only its result array moves. -/
theorem W6_keep (c : Dev nD) (b : Ref sig .tc) (hb : b ≠ main_v10) :
    W6 m c (Proc.devRef .tc b) = W5 m c (Proc.devRef .tc b) := by
  by_cases h0 : b = main_v2
  · subst h0; exact (W6_arr m c 0).trans (((dat2 (X5 m) c).arrAt_in 0 rfl _).trans (A_eq2 (X5 m) c 0))
  by_cases h1 : b = main_arg7
  · subst h1; exact (W6_arr m c 1).trans (((dat2 (X5 m) c).arrAt_in 1 rfl _).trans (A_eq2 (X5 m) c 1))
  by_cases h2 : b = main_v9
  · subst h2; exact (W6_arr m c 2).trans (((dat2 (X5 m) c).arrAt_in 2 rfl _).trans (A_eq2 (X5 m) c 2))
  exact W6_of_ne m c b fun w e => by
    fin_cases w
    · exact h0 e.symm
    · exact h1 e.symm
    · exact h2 e.symm
    · exact hb e.symm
/-- A stretch of reshapes changes only the buffers it writes. -/
theorem W5_keep (c : Dev nD) (b : Ref sig .tc) (hb : b ∉ hostOps2_W) :
    W5 m c (Proc.devRef .tc b) = W4 m c (Proc.devRef .tc b) :=
  StableHlo.after_of_writes_sub hostOps2 _ hostOps2_writes hb

/-- After the reshapes before region 3. -/
abbrev W7 : Dev nD → Valuation τ sig (Elt F) := fun c => StableHlo.after hostOps3 (W6 m c)
/-- The same read at the core's references: what region 3 finds. -/
abbrev X7 : (c : Dev nD) → (b : Ref sig .tc) → Buf (Elt F) ((c : Thread nD τ).loc b) := fun c b => W7 m c b
/-- After region 3: its windows' arrays at what the write-backs fold to, every other buffer as found. -/
def W8 (c : Dev nD) : Valuation τ sig (Elt F) :=
  Pipeline.withArrays spec3 c (W7 m c) fun w => (dat3 (X7 m) c).arrAt w cfg3.N
theorem W8_arr (c : Dev nD) (w : Fin cfg3.W) :
    W8 m c (Proc.devRef .tc (Pipeline.arrRef spec3 w)) = (dat3 (X7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev X8 : (c : Dev nD) → (b : Ref sig .tc) → Buf (Elt F) ((c : Thread nD τ).loc b) := fun c b => W8 m c b
theorem hF3 (c : Dev nD) (w : Fin cfg3.W) : (dat3 (X7 m) c).arrAt w cfg3.N = X8 m c (Pipeline.arrRef spec3 w) :=
  (W8_arr m c w).symm
theorem hrest3 (c : Dev nD) : ∀ b, b ∉ Finset.univ.image (Pipeline.arrRef spec3) → X8 m c b = X7 m c b :=
  fun b hb => W8_of_ne m c b fun w e => hb (Finset.mem_image.mpr ⟨w, Finset.mem_univ _, e⟩)
/-- A region changes none of its input arrays and no buffer outside its windows: only its result array moves. -/
theorem W8_keep (c : Dev nD) (b : Ref sig .tc) (hb : b ≠ main_v12) :
    W8 m c (Proc.devRef .tc b) = W7 m c (Proc.devRef .tc b) := by
  by_cases h0 : b = main_v5
  · subst h0; exact (W8_arr m c 0).trans (((dat3 (X7 m) c).arrAt_in 0 rfl _).trans (A_eq3 (X7 m) c 0))
  by_cases h1 : b = main_v8
  · subst h1; exact (W8_arr m c 1).trans (((dat3 (X7 m) c).arrAt_in 1 rfl _).trans (A_eq3 (X7 m) c 1))
  by_cases h2 : b = main_v11
  · subst h2; exact (W8_arr m c 2).trans (((dat3 (X7 m) c).arrAt_in 2 rfl _).trans (A_eq3 (X7 m) c 2))
  exact W8_of_ne m c b fun w e => by
    fin_cases w
    · exact h0 e.symm
    · exact h1 e.symm
    · exact h2 e.symm
    · exact hb e.symm
/-- A stretch of reshapes changes only the buffers it writes. -/
theorem W7_keep (c : Dev nD) (b : Ref sig .tc) (hb : b ∉ hostOps3_W) :
    W7 m c (Proc.devRef .tc b) = W6 m c (Proc.devRef .tc b) :=
  StableHlo.after_of_writes_sub hostOps3 _ hostOps3_writes hb

/-! ## The arguments end as launched -/

/-- A buffer that no stretch of reshapes writes and that is no region's result array ends as launched. -/
theorem W8_launch (c : Dev nD) (b : Ref sig .tc) (h0 : b ∉ hostOps0_W) (h1 : b ∉ hostOps1_W) (h2 : b ∉ hostOps2_W) (h3 : b ∉ hostOps3_W)
    (r0 : b ≠ main_v4) (r1 : b ≠ main_v7) (r2 : b ≠ main_v10) (r3 : b ≠ main_v12) :
    W8 m c (Proc.devRef .tc b) = m ((c : Thread nD τ).loc b) :=
  (W8_keep m c b r3).trans <| (W7_keep m c b h3).trans <| (W6_keep m c b r2).trans <| (W5_keep m c b h2).trans <|
    (W4_keep m c b r1).trans <| (W3_keep m c b h1).trans <| (W2_keep m c b r0).trans <| (W1_keep m c b h0).trans rfl

/-- The result array ends at what the attention region's write-backs fold to. -/
theorem W8_result (c : Dev nD) : W8 m c (Proc.devRef .tc main_v12) = (dat3 (X7 m) c).arrAt 3 cfg3.N :=
  W8_arr m c 3

/-! ## The proof data of the four regions, and what rides beside the buffers -/

/-- Each region's proof data at the contents it is entered with. -/
def pdats : (p : Fin 4) → (c : Dev nD) → Dat τ (Elt F) Unit ℕ (UR sig nD τ) ℕ (Pipeline.pin (pcfgs (F := F)) adm p) c
  | ⟨0, _⟩ => fun c => dat0 (X1 m) c
  | ⟨1, _⟩ => fun c => dat1 (X3 m) c
  | ⟨2, _⟩ => fun c => dat2 (X5 m) c
  | ⟨3, _⟩ => fun c => dat3 (X7 m) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
/-- A stretch of reshapes as a segment of the run, from contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary: every unscoped buffer at the final contents, the generator register at some state. -/
abbrev Tₙ (c : Dev nD) : sProp 𝕄 := iprop(StableHlo.held (c : Thread nD τ) (Pipeline.ucRefs τ sig) (W8 m c) ∗ ∃ r, prngReg c r)

/-! ## The regions as segments of the run -/

set_option backward.isDefEq.respectTransparency.types false in
/-- Region 0 between the contents before it and after it: its arrays are split out of the core's buffers at entry and
    put back at the exit contents; the generator register goes into the region's invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents before it and after it: its arrays are split out of the core's buffers at entry and
    put back at the exit contents; the generator register goes into the region's invariant and comes back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (X3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X3 m c) (X4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents before it and after it: its arrays are split out of the core's buffers at entry and
    put back at the exit contents; the generator register goes into the region's invariant and comes back. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (X5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (X5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (X5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (X5 m c) (X6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 between the contents before it and after it: its arrays are split out of the core's buffers at entry and
    put back at the exit contents; the generator register goes into the region's invariant and comes back. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (X7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (X7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (X7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (X7 m) c)
    unfold Pipeline.ΦA
    iintro ⟨Hp, -, Hr⟩
    isplitl [Hr]; · iexact Hr
    iexact Hp
  hout c := by
    refine BIBase.Entails.trans (hout3 (X7 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (X7 m c) (X8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The eight segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- The program is the run of these segments. -/
theorem main_run (c : Dev nD) : main (F := F) c = Pipeline.Seg.run (segs m) := (main_chain c).trans (by chain_rfl)

set_option backward.isDefEq.respectTransparency.types false in
/-- From any memory with every counter at zero, every weakly fair execution of the program terminates, nothing faults,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W8_launch m c main_arg0 (by decide) (by decide) (by decide) (by decide) (by decide) (by decide) (by decide) (by decide)),
     (h c _ (mem_uc main_arg1 (by decide))).trans (W8_launch m c main_arg1 (by decide) (by decide) (by decide) (by decide) (by decide) (by decide) (by decide) (by decide)),
     (h c _ (mem_uc main_arg2 (by decide))).trans (W8_launch m c main_arg2 (by decide) (by decide) (by decide) (by decide) (by decide) (by decide) (by decide) (by decide)),
     (h c _ (mem_uc main_arg3 (by decide))).trans (W8_launch m c main_arg3 (by decide) (by decide) (by decide) (by decide) (by decide) (by decide) (by decide) (by decide)),
     (h c _ (mem_uc main_arg4 (by decide))).trans (W8_launch m c main_arg4 (by decide) (by decide) (by decide) (by decide) (by decide) (by decide) (by decide) (by decide)),
     (h c _ (mem_uc main_arg5 (by decide))).trans (W8_launch m c main_arg5 (by decide) (by decide) (by decide) (by decide) (by decide) (by decide) (by decide) (by decide)),
     (h c _ (mem_uc main_arg6 (by decide))).trans (W8_launch m c main_arg6 (by decide) (by decide) (by decide) (by decide) (by decide) (by decide) (by decide) (by decide)),
     (h c _ (mem_uc main_arg7 (by decide))).trans (W8_launch m c main_arg7 (by decide) (by decide) (by decide) (by decide) (by decide) (by decide) (by decide) (by decide)),
     (h c _ (mem_uc main_arg8 (by decide))).trans (W8_launch m c main_arg8 (by decide) (by decide) (by decide) (by decide) (by decide) (by decide) (by decide) (by decide))⟩)
    (run_all m ρ)

end Cert.KernelIdeal.Gen.Hand

end
-- ==== Proof.KI.LinPay.lean ====
import proofs.«101586_j4587025072774_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# What the three projection regions share: one block's payload, entry by entry

Each projection region computes, 512 rows at a time, y = x · wᵀ + b: entry (p, e) of a block is the
sum over d of x[p, d] · w[e, d] (both operands contracted along their second axis, into a zero
accumulator), plus the bias row's entry b[0, e] (the one row repeated over the 512 rows). The changes
of float format on the way are the identity on the extended reals. `lin2` is the same formula on the
whole 8192 × 1024 array.
-/

set_option maxRecDepth 16384

noncomputable section

open scoped BigOperators

namespace Cert.KernelIdeal.Gen.Hand

open Idealize.ShloMosaic Idealize.ShloMosaic.TcCoe Idealize.SL.Sem

/-- Entry (r, e) of the projection of the flattened activations: row r of x against row e of w, plus b[0, e]. -/
def lin2At (x : S8192x1024.Idx → EReal) (w : S1024x1024.Idx → EReal) (b2 : S1x1024.Idx → EReal) (r : Fin 8192) (e : Fin 1024) : EReal :=
  (∑ d : Fin 1024, x (ValueIdx.ix2 r d) * w (ValueIdx.ix2 e d)) + b2 (ValueIdx.ix2 (0 : Fin 1) e)

/-- The projection as an array. -/
def lin2 (x : S8192x1024.Idx → EReal) (w : S1024x1024.Idx → EReal) (b2 : S1x1024.Idx → EReal) : S8192x1024.Idx → EReal :=
  fun i => lin2At x w b2 (i 0) (i 1)

/-- The product's left operand is read at the output's row … -/
theorem lhs_lin_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- … and the contracted position; -/
theorem lhs_lin_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- the right operand at the output's column, as its ROW (the weights are stored output-feature major), … -/
theorem rhs_lin_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- … and the contracted position. -/
theorem rhs_lin_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product into a zero accumulator, at entry (p, e): the sum over d of l[p, d] · r[e, d]. -/
theorem matmul_lin_apply {φ₁ φ₂ : FTy} (l : FVec Ideal S512x1024 φ₁) (r : FVec Ideal S1024x1024 φ₂) (p : Fin 512) (e : Fin 1024) :
    (matmul dot_S512x1024_S1024x1024_S512x1024_1_1_0_0_n_n none l r (constant (F := Ideal) S512x1024 .f32 0x00000000#32) : FVec Ideal S512x1024 .f32) (ValueIdx.ix2 p e)
      = ∑ d : Fin 1024, l (ValueIdx.ix2 p d) * r (ValueIdx.ix2 e d) := by
  refine (Ideal.matmul_constant_zero_apply dot_S512x1024_S1024x1024_S512x1024_1_1_0_0_n_n none l r (ValueIdx.ix2 p e)).trans ?_
  rw [← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ValueIdx.ix2 p e) ((ValueIdx.contrEquiv1 dot_S512x1024_S1024x1024_S512x1024_1_1_0_0_n_n 1024 rfl rfl).symm k) = ValueIdx.ix2 p k := funext fun a => Fin.ext (by
    match a with
    | ⟨0, _⟩ => exact lhs_lin_0 _ _
    | ⟨1, _⟩ => exact (lhs_lin_1 _ _).trans hk)
  have er : dot_S512x1024_S1024x1024_S512x1024_1_1_0_0_n_n.rhsIdx (ValueIdx.ix2 p e) ((ValueIdx.contrEquiv1 dot_S512x1024_S1024x1024_S512x1024_1_1_0_0_n_n 1024 rfl rfl).symm k) = ValueIdx.ix2 e k := funext fun a => Fin.ext (by
    match a with
    | ⟨0, _⟩ => exact rhs_lin_0 _ _
    | ⟨1, _⟩ => exact (rhs_lin_1 _ _).trans hk)
  rw [el, er]

/-- One block of a projection region at entry (p, e): row p of the activation block against row e of the weights, plus b[0, e]. -/
theorem k0_pay1_apply (x0 : Vec Ideal S512x1024 .f32) (x1 : Vec Ideal S1024x1024 .f32) (x2 : Vec Ideal S1x1024 .f32) (p : Fin 512) (e : Fin 1024) :
    k0_pay1 (F := Ideal) x0 x1 x2 (ValueIdx.ix2 p e) = (∑ d : Fin 1024, x0 (ValueIdx.ix2 p d) * x1 (ValueIdx.ix2 e d)) + x2 (ValueIdx.ix2 (0 : Fin 1) e) := by
  unfold k0_pay1
  refine (ValueIdx.addf_apply _ _ (ValueIdx.ix2 p e)).trans ?_
  refine congrArg₂ (· + ·) ?_ ?_
  · refine (matmul_lin_apply _ _ p e).trans ?_
    refine Finset.sum_congr rfl fun d _ => ?_
    rw [shapeCast_self]
    rfl
  · refine (ValueIdx.broadcastTo_1b_ab_apply _ broadcasts_S1x1024_S512x1024 p e).trans ?_
    rw [shapeCast_self]

/-- The three regions' payloads are one and the same term. -/
theorem k1_pay1_eq {F : FTy → Type} [FloatOps F] (x0 : Vec F S512x1024 .f32) (x1 : Vec F S1024x1024 .f32) (x2 : Vec F S1x1024 .f32) :
    k1_pay1 (F := F) x0 x1 x2 = k0_pay1 x0 x1 x2 := rfl
theorem k2_pay1_eq {F : FTy → Type} [FloatOps F] (x0 : Vec F S512x1024 .f32) (x1 : Vec F S1024x1024 .f32) (x2 : Vec F S1x1024 .f32) :
    k2_pay1 (F := F) x0 x1 x2 = k0_pay1 x0 x1 x2 := rfl

/-- So each region's payload has the same entries. -/
theorem k1_pay1_apply (x0 : Vec Ideal S512x1024 .f32) (x1 : Vec Ideal S1024x1024 .f32) (x2 : Vec Ideal S1x1024 .f32) (p : Fin 512) (e : Fin 1024) :
    k1_pay1 (F := Ideal) x0 x1 x2 (ValueIdx.ix2 p e) = (∑ d : Fin 1024, x0 (ValueIdx.ix2 p d) * x1 (ValueIdx.ix2 e d)) + x2 (ValueIdx.ix2 (0 : Fin 1) e) :=
  (congrFun (k1_pay1_eq x0 x1 x2) (ValueIdx.ix2 p e)).trans (k0_pay1_apply x0 x1 x2 p e)
theorem k2_pay1_apply (x0 : Vec Ideal S512x1024 .f32) (x1 : Vec Ideal S1024x1024 .f32) (x2 : Vec Ideal S1x1024 .f32) (p : Fin 512) (e : Fin 1024) :
    k2_pay1 (F := Ideal) x0 x1 x2 (ValueIdx.ix2 p e) = (∑ d : Fin 1024, x0 (ValueIdx.ix2 p d) * x1 (ValueIdx.ix2 e d)) + x2 (ValueIdx.ix2 (0 : Fin 1) e) :=
  (congrFun (k2_pay1_eq x0 x1 x2) (ValueIdx.ix2 p e)).trans (k0_pay1_apply x0 x1 x2 p e)

end Cert.KernelIdeal.Gen.Hand

end
-- ==== Proof.KI.LinVal0.lean ====
import proofs.«101586_j4587025072774_1_alg».proof.Proof.KI.Lin0
import proofs.«101586_j4587025072774_1_alg».proof.Proof.KI.LinPay
import Idealize.ShloMosaic.Lib.Pipeline.Value

/-!
# Projection region 0: the result array after the region is  y = x · wᵀ + b  on all 8192 rows

Point t of the 16 writes back rows 512·t … 512·t + 511: entry (p, e) of its block is row p of the
activation block (row 512·t + p of the array) against row e of the whole weight matrix, plus the
bias row's entry e: that is entry (512·t + p, e) of `lin2` of the three arrays as the region finds
them. Row r of the result is written by point r / 512, so the 16 blocks fill the array.
-/

set_option maxRecDepth 16384

noncomputable section

open scoped BigOperators

namespace Cert.KernelIdeal.Gen.Hand

open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The region's payload at entry (p, e). -/
theorem pay0_apply (x0 : Vec Ideal S512x1024 .f32) (x1 : Vec Ideal S1024x1024 .f32) (x2 : Vec Ideal S1x1024 .f32) (p : Fin 512) (e : Fin 1024) :
    k0_pay1 (F := Ideal) x0 x1 x2 (ValueIdx.ix2 p e) = (∑ d : Fin 1024, x0 (ValueIdx.ix2 p d) * x1 (ValueIdx.ix2 e d)) + x2 (ValueIdx.ix2 (0 : Fin 1) e) :=
  k0_pay1_apply x0 x1 x2 p e

/-- The printed index maps over the 16 points: the activations' block and the result's block are
    block t along the rows; the weights and the bias row are taken whole. -/
theorem idx_facts0 : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every block of rows is some point's. -/
theorem idx_onto0 : ∀ (q0 : Fin 16) (q1 : Fin 1), ∃ t : Fin cfg0.N, win0_3.index t = ![q0.val, q1.val] :=
  (by decide +kernel : ∀ (q0 : Fin 16) (q1 : Fin 1), ∃ t : Fin grid0.N, win0_3.index t = ![q0.val, q1.val])

/-- One entry of one point's block: if the activation block is rows 512·n … of the array X, the weights
    block is W and the bias block is B, the payload at y is `lin2 X W B` at row 512·n + y₀, column y₁. -/
theorem point0 (X : S8192x1024.Idx → EReal) (W : S1024x1024.Idx → EReal) (B : S1x1024.Idx → EReal)
    (x0 : Vec Ideal S512x1024 .f32) (x1 : Vec Ideal S1024x1024 .f32) (x2 : Vec Ideal S1x1024 .f32)
    (y : S512x1024.Idx) (i : S8192x1024.Idx) (n : Nat)
    (hi0 : (i 0).val = n * 512 + (y 0).val) (hi1 : (i 1).val = (y 1).val)
    (h0 : ∀ (y' : S512x1024.Idx) (i' : S8192x1024.Idx), (i' 0).val = n * 512 + (y' 0).val → (i' 1).val = (y' 1).val → x0 y' = X i')
    (h1 : x1 = W) (h2 : x2 = B) :
    k0_pay1 (F := Ideal) x0 x1 x2 y = lin2 X W B i := by
  obtain ⟨p, e, rfl⟩ : ∃ (p : Fin 512) (e : Fin 1024), y = ValueIdx.ix2 p e := ⟨y 0, y 1, ValueIdx.eq_ix2 y⟩
  refine (pay0_apply x0 x1 x2 p e).trans ?_
  subst h1 h2
  have he : i 1 = e := Fin.ext hi1
  unfold lin2 lin2At
  rw [he]
  refine congrArg (· + x2 (ValueIdx.ix2 (0 : Fin 1) e)) ?_
  refine Finset.sum_congr rfl fun d _ => ?_
  rw [h0 (ValueIdx.ix2 p d) (ValueIdx.ix2 (i 0) d) hi0 rfl]

/-- WHAT POINT t WRITES BACK is block t of `lin2` of the three arrays as the region finds them. -/
theorem flushed0_eq (c : Dev nD) (t : Fin cfg0.N) :
    (dat0 V c).flushed 3 t = ((cfg0.win 3).blk t).view.read (Elt Ideal) (lin2 (V c main_v0) (V c main_arg3) (V c main_v3)) := by
  show (cfg0.win 3).cut (grid0.coords t) ((dat0 V c).after 3 t) = _
  rw [after0_3]
  unfold out0_3
  rw [View.canon_unit_zero hz0]
  simp only [View.ld_unit_zero (S := S512x1024) hz0, View.ld_unit_zero (S := S1024x1024) hz0, View.ld_unit_zero (S := S1x1024) hz0]
  obtain ⟨e30, e31, e00, e01, e10, e11, e20, e21⟩ := idx_facts0 t
  funext j
  refine point0 (V c main_v0) (V c main_arg3) (V c main_v3) (iblk0 V c 0 t) (iblk0 V c 1 t) (iblk0 V c 2 t)
    ((cfg0.win 3).xinj (grid0.coords t) j) (((cfg0.win 3).blk t).view.emb j) t.val ?_ ?_ ?_ ?_ ?_
  · show win0_3.index t (0 : Fin 2) * 512 + 1 * (j 0).val = t.val * 512 + (j 0).val
    omega
  · show win0_3.index t (1 : Fin 2) * 1024 + 1 * (j 1).val = (j 1).val
    omega
  · intro y' i' hi0 hi1
    show V c main_v0 (((cfg0.win 0).blk t).view.emb y') = V c main_v0 i'
    refine congrArg (V c main_v0) (funext fun a => Fin.ext ?_)
    match a with
    | ⟨0, _⟩ => show win0_0.index t (0 : Fin 2) * 512 + 1 * (y' 0).val = (i' 0).val; omega
    | ⟨1, _⟩ => show win0_0.index t (1 : Fin 2) * 1024 + 1 * (y' 1).val = (i' 1).val; omega
  · funext y'
    show V c main_arg3 (((cfg0.win 1).blk t).view.emb y') = V c main_arg3 y'
    refine congrArg (V c main_arg3) (funext fun a => Fin.ext ?_)
    match a with
    | ⟨0, _⟩ => show win0_1.index t (0 : Fin 2) * 1024 + 1 * (y' 0).val = (y' 0).val; omega
    | ⟨1, _⟩ => show win0_1.index t (1 : Fin 2) * 1024 + 1 * (y' 1).val = (y' 1).val; omega
  · funext y'
    show V c main_v3 (((cfg0.win 2).blk t).view.emb y') = V c main_v3 y'
    refine congrArg (V c main_v3) (funext fun a => Fin.ext ?_)
    match a with
    | ⟨0, _⟩ => show win0_2.index t (0 : Fin 2) * 1 + 1 * (y' 0).val = (y' 0).val; omega
    | ⟨1, _⟩ => show win0_2.index t (1 : Fin 2) * 1024 + 1 * (y' 1).val = (y' 1).val; omega

/-- An index of the result array is in point t's block iff each coordinate is in the block's range on its axis. -/
theorem mem_blk0 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4).slice (win0_3.rect t)).set ↔ _
  rw [View.set_slice_whole, Rect.mem_set_unit]
  exact Iff.rfl

/-- Row r of the result is written back by point r / 512: the 16 blocks fill the array. -/
theorem cover0 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ := idx_onto0 ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE RESULT ARRAY after the region: the projection of the three arrays as the region finds them. -/
theorem final0 (c : Dev nD) :
    (dat0 (F := Ideal) V c).arrAt 3 cfg0.N = lin2 (V c main_v0) (V c main_arg3) (V c main_v3) :=
  (dat0 V c).arrAt_eq_of_cover 3 (lin2 (V c main_v0) (V c main_arg3) (V c main_v3)) (fun t _ => flushed0_eq V c t) cover0

end Cert.KernelIdeal.Gen.Hand

end
-- ==== Proof.KI.LinVal1.lean ====
import proofs.«101586_j4587025072774_1_alg».proof.Proof.KI.Lin1
import proofs.«101586_j4587025072774_1_alg».proof.Proof.KI.LinPay
import Idealize.ShloMosaic.Lib.Pipeline.Value

/-!
# Projection region 1: the result array after the region is  y = x · wᵀ + b  on all 8192 rows

Point t of the 16 writes back rows 512·t … 512·t + 511: entry (p, e) of its block is row p of the
activation block (row 512·t + p of the array) against row e of the whole weight matrix, plus the
bias row's entry e: that is entry (512·t + p, e) of `lin2` of the three arrays as the region finds
them. Row r of the result is written by point r / 512, so the 16 blocks fill the array.
-/

set_option maxRecDepth 16384

noncomputable section

open scoped BigOperators

namespace Cert.KernelIdeal.Gen.Hand

open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The region's payload at entry (p, e). -/
theorem pay1_apply (x0 : Vec Ideal S512x1024 .f32) (x1 : Vec Ideal S1024x1024 .f32) (x2 : Vec Ideal S1x1024 .f32) (p : Fin 512) (e : Fin 1024) :
    k1_pay1 (F := Ideal) x0 x1 x2 (ValueIdx.ix2 p e) = (∑ d : Fin 1024, x0 (ValueIdx.ix2 p d) * x1 (ValueIdx.ix2 e d)) + x2 (ValueIdx.ix2 (0 : Fin 1) e) :=
  k1_pay1_apply x0 x1 x2 p e

/-- The printed index maps over the 16 points: the activations' block and the result's block are
    block t along the rows; the weights and the bias row are taken whole. -/
theorem idx_facts1 : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Every block of rows is some point's. -/
theorem idx_onto1 : ∀ (q0 : Fin 16) (q1 : Fin 1), ∃ t : Fin cfg1.N, win1_3.index t = ![q0.val, q1.val] :=
  (by decide +kernel : ∀ (q0 : Fin 16) (q1 : Fin 1), ∃ t : Fin grid1.N, win1_3.index t = ![q0.val, q1.val])

/-- One entry of one point's block: if the activation block is rows 512·n … of the array X, the weights
    block is W and the bias block is B, the payload at y is `lin2 X W B` at row 512·n + y₀, column y₁. -/
theorem point1 (X : S8192x1024.Idx → EReal) (W : S1024x1024.Idx → EReal) (B : S1x1024.Idx → EReal)
    (x0 : Vec Ideal S512x1024 .f32) (x1 : Vec Ideal S1024x1024 .f32) (x2 : Vec Ideal S1x1024 .f32)
    (y : S512x1024.Idx) (i : S8192x1024.Idx) (n : Nat)
    (hi0 : (i 0).val = n * 512 + (y 0).val) (hi1 : (i 1).val = (y 1).val)
    (h0 : ∀ (y' : S512x1024.Idx) (i' : S8192x1024.Idx), (i' 0).val = n * 512 + (y' 0).val → (i' 1).val = (y' 1).val → x0 y' = X i')
    (h1 : x1 = W) (h2 : x2 = B) :
    k1_pay1 (F := Ideal) x0 x1 x2 y = lin2 X W B i := by
  obtain ⟨p, e, rfl⟩ : ∃ (p : Fin 512) (e : Fin 1024), y = ValueIdx.ix2 p e := ⟨y 0, y 1, ValueIdx.eq_ix2 y⟩
  refine (pay1_apply x0 x1 x2 p e).trans ?_
  subst h1 h2
  have he : i 1 = e := Fin.ext hi1
  unfold lin2 lin2At
  rw [he]
  refine congrArg (· + x2 (ValueIdx.ix2 (0 : Fin 1) e)) ?_
  refine Finset.sum_congr rfl fun d _ => ?_
  rw [h0 (ValueIdx.ix2 p d) (ValueIdx.ix2 (i 0) d) hi0 rfl]

/-- WHAT POINT t WRITES BACK is block t of `lin2` of the three arrays as the region finds them. -/
theorem flushed1_eq (c : Dev nD) (t : Fin cfg1.N) :
    (dat1 V c).flushed 3 t = ((cfg1.win 3).blk t).view.read (Elt Ideal) (lin2 (V c main_v1) (V c main_arg5) (V c main_v6)) := by
  show (cfg1.win 3).cut (grid1.coords t) ((dat1 V c).after 3 t) = _
  rw [after1_3]
  unfold out1_3
  rw [View.canon_unit_zero hz1]
  simp only [View.ld_unit_zero (S := S512x1024) hz1, View.ld_unit_zero (S := S1024x1024) hz1, View.ld_unit_zero (S := S1x1024) hz1]
  obtain ⟨e30, e31, e00, e01, e10, e11, e20, e21⟩ := idx_facts1 t
  funext j
  refine point1 (V c main_v1) (V c main_arg5) (V c main_v6) (iblk1 V c 0 t) (iblk1 V c 1 t) (iblk1 V c 2 t)
    ((cfg1.win 3).xinj (grid1.coords t) j) (((cfg1.win 3).blk t).view.emb j) t.val ?_ ?_ ?_ ?_ ?_
  · show win1_3.index t (0 : Fin 2) * 512 + 1 * (j 0).val = t.val * 512 + (j 0).val
    omega
  · show win1_3.index t (1 : Fin 2) * 1024 + 1 * (j 1).val = (j 1).val
    omega
  · intro y' i' hi0 hi1
    show V c main_v1 (((cfg1.win 0).blk t).view.emb y') = V c main_v1 i'
    refine congrArg (V c main_v1) (funext fun a => Fin.ext ?_)
    match a with
    | ⟨0, _⟩ => show win1_0.index t (0 : Fin 2) * 512 + 1 * (y' 0).val = (i' 0).val; omega
    | ⟨1, _⟩ => show win1_0.index t (1 : Fin 2) * 1024 + 1 * (y' 1).val = (i' 1).val; omega
  · funext y'
    show V c main_arg5 (((cfg1.win 1).blk t).view.emb y') = V c main_arg5 y'
    refine congrArg (V c main_arg5) (funext fun a => Fin.ext ?_)
    match a with
    | ⟨0, _⟩ => show win1_1.index t (0 : Fin 2) * 1024 + 1 * (y' 0).val = (y' 0).val; omega
    | ⟨1, _⟩ => show win1_1.index t (1 : Fin 2) * 1024 + 1 * (y' 1).val = (y' 1).val; omega
  · funext y'
    show V c main_v6 (((cfg1.win 2).blk t).view.emb y') = V c main_v6 y'
    refine congrArg (V c main_v6) (funext fun a => Fin.ext ?_)
    match a with
    | ⟨0, _⟩ => show win1_2.index t (0 : Fin 2) * 1 + 1 * (y' 0).val = (y' 0).val; omega
    | ⟨1, _⟩ => show win1_2.index t (1 : Fin 2) * 1024 + 1 * (y' 1).val = (y' 1).val; omega

/-- An index of the result array is in point t's block iff each coordinate is in the block's range on its axis. -/
theorem mem_blk1 (t : Fin cfg1.N) (i : S8192x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v7).slice (win1_3.rect t)).set ↔ _
  rw [View.set_slice_whole, Rect.mem_set_unit]
  exact Iff.rfl

/-- Row r of the result is written back by point r / 512: the 16 blocks fill the array. -/
theorem cover1 (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  obtain ⟨t, ht⟩ := idx_onto1 ⟨(i 0).val / 512, by omega⟩ ⟨(i 1).val / 1024, by omega⟩
  have q0 : win1_3.index t (0 : Fin 2) = (i 0).val / 512 := congrFun ht 0
  have q1 : win1_3.index t (1 : Fin 2) = (i 1).val / 1024 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- THE RESULT ARRAY after the region: the projection of the three arrays as the region finds them. -/
theorem final1 (c : Dev nD) :
    (dat1 (F := Ideal) V c).arrAt 3 cfg1.N = lin2 (V c main_v1) (V c main_arg5) (V c main_v6) :=
  (dat1 V c).arrAt_eq_of_cover 3 (lin2 (V c main_v1) (V c main_arg5) (V c main_v6)) (fun t _ => flushed1_eq V c t) cover1

end Cert.KernelIdeal.Gen.Hand

end
-- ==== Proof.KI.LinVal2.lean ====
import proofs.«101586_j4587025072774_1_alg».proof.Proof.KI.Lin2
import proofs.«101586_j4587025072774_1_alg».proof.Proof.KI.LinPay
import Idealize.ShloMosaic.Lib.Pipeline.Value

/-!
# Projection region 2: the result array after the region is  y = x · wᵀ + b  on all 8192 rows

Point t of the 16 writes back rows 512·t … 512·t + 511: entry (p, e) of its block is row p of the
activation block (row 512·t + p of the array) against row e of the whole weight matrix, plus the
bias row's entry e: that is entry (512·t + p, e) of `lin2` of the three arrays as the region finds
them. Row r of the result is written by point r / 512, so the 16 blocks fill the array.
-/

set_option maxRecDepth 16384

noncomputable section

open scoped BigOperators

namespace Cert.KernelIdeal.Gen.Hand

open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The region's payload at entry (p, e). -/
theorem pay2_apply (x0 : Vec Ideal S512x1024 .f32) (x1 : Vec Ideal S1024x1024 .f32) (x2 : Vec Ideal S1x1024 .f32) (p : Fin 512) (e : Fin 1024) :
    k2_pay1 (F := Ideal) x0 x1 x2 (ValueIdx.ix2 p e) = (∑ d : Fin 1024, x0 (ValueIdx.ix2 p d) * x1 (ValueIdx.ix2 e d)) + x2 (ValueIdx.ix2 (0 : Fin 1) e) :=
  k2_pay1_apply x0 x1 x2 p e

/-- The printed index maps over the 16 points: the activations' block and the result's block are
    block t along the rows; the weights and the bias row are taken whole. -/
theorem idx_facts2 : ∀ t : Fin cfg2.N, win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Every block of rows is some point's. -/
theorem idx_onto2 : ∀ (q0 : Fin 16) (q1 : Fin 1), ∃ t : Fin cfg2.N, win2_3.index t = ![q0.val, q1.val] :=
  (by decide +kernel : ∀ (q0 : Fin 16) (q1 : Fin 1), ∃ t : Fin grid2.N, win2_3.index t = ![q0.val, q1.val])

/-- One entry of one point's block: if the activation block is rows 512·n … of the array X, the weights
    block is W and the bias block is B, the payload at y is `lin2 X W B` at row 512·n + y₀, column y₁. -/
theorem point2 (X : S8192x1024.Idx → EReal) (W : S1024x1024.Idx → EReal) (B : S1x1024.Idx → EReal)
    (x0 : Vec Ideal S512x1024 .f32) (x1 : Vec Ideal S1024x1024 .f32) (x2 : Vec Ideal S1x1024 .f32)
    (y : S512x1024.Idx) (i : S8192x1024.Idx) (n : Nat)
    (hi0 : (i 0).val = n * 512 + (y 0).val) (hi1 : (i 1).val = (y 1).val)
    (h0 : ∀ (y' : S512x1024.Idx) (i' : S8192x1024.Idx), (i' 0).val = n * 512 + (y' 0).val → (i' 1).val = (y' 1).val → x0 y' = X i')
    (h1 : x1 = W) (h2 : x2 = B) :
    k2_pay1 (F := Ideal) x0 x1 x2 y = lin2 X W B i := by
  obtain ⟨p, e, rfl⟩ : ∃ (p : Fin 512) (e : Fin 1024), y = ValueIdx.ix2 p e := ⟨y 0, y 1, ValueIdx.eq_ix2 y⟩
  refine (pay2_apply x0 x1 x2 p e).trans ?_
  subst h1 h2
  have he : i 1 = e := Fin.ext hi1
  unfold lin2 lin2At
  rw [he]
  refine congrArg (· + x2 (ValueIdx.ix2 (0 : Fin 1) e)) ?_
  refine Finset.sum_congr rfl fun d _ => ?_
  rw [h0 (ValueIdx.ix2 p d) (ValueIdx.ix2 (i 0) d) hi0 rfl]

/-- WHAT POINT t WRITES BACK is block t of `lin2` of the three arrays as the region finds them. -/
theorem flushed2_eq (c : Dev nD) (t : Fin cfg2.N) :
    (dat2 V c).flushed 3 t = ((cfg2.win 3).blk t).view.read (Elt Ideal) (lin2 (V c main_v2) (V c main_arg7) (V c main_v9)) := by
  show (cfg2.win 3).cut (grid2.coords t) ((dat2 V c).after 3 t) = _
  rw [after2_3]
  unfold out2_3
  rw [View.canon_unit_zero hz2]
  simp only [View.ld_unit_zero (S := S512x1024) hz2, View.ld_unit_zero (S := S1024x1024) hz2, View.ld_unit_zero (S := S1x1024) hz2]
  obtain ⟨e30, e31, e00, e01, e10, e11, e20, e21⟩ := idx_facts2 t
  funext j
  refine point2 (V c main_v2) (V c main_arg7) (V c main_v9) (iblk2 V c 0 t) (iblk2 V c 1 t) (iblk2 V c 2 t)
    ((cfg2.win 3).xinj (grid2.coords t) j) (((cfg2.win 3).blk t).view.emb j) t.val ?_ ?_ ?_ ?_ ?_
  · show win2_3.index t (0 : Fin 2) * 512 + 1 * (j 0).val = t.val * 512 + (j 0).val
    omega
  · show win2_3.index t (1 : Fin 2) * 1024 + 1 * (j 1).val = (j 1).val
    omega
  · intro y' i' hi0 hi1
    show V c main_v2 (((cfg2.win 0).blk t).view.emb y') = V c main_v2 i'
    refine congrArg (V c main_v2) (funext fun a => Fin.ext ?_)
    match a with
    | ⟨0, _⟩ => show win2_0.index t (0 : Fin 2) * 512 + 1 * (y' 0).val = (i' 0).val; omega
    | ⟨1, _⟩ => show win2_0.index t (1 : Fin 2) * 1024 + 1 * (y' 1).val = (i' 1).val; omega
  · funext y'
    show V c main_arg7 (((cfg2.win 1).blk t).view.emb y') = V c main_arg7 y'
    refine congrArg (V c main_arg7) (funext fun a => Fin.ext ?_)
    match a with
    | ⟨0, _⟩ => show win2_1.index t (0 : Fin 2) * 1024 + 1 * (y' 0).val = (y' 0).val; omega
    | ⟨1, _⟩ => show win2_1.index t (1 : Fin 2) * 1024 + 1 * (y' 1).val = (y' 1).val; omega
  · funext y'
    show V c main_v9 (((cfg2.win 2).blk t).view.emb y') = V c main_v9 y'
    refine congrArg (V c main_v9) (funext fun a => Fin.ext ?_)
    match a with
    | ⟨0, _⟩ => show win2_2.index t (0 : Fin 2) * 1 + 1 * (y' 0).val = (y' 0).val; omega
    | ⟨1, _⟩ => show win2_2.index t (1 : Fin 2) * 1024 + 1 * (y' 1).val = (y' 1).val; omega

/-- An index of the result array is in point t's block iff each coordinate is in the block's range on its axis. -/
theorem mem_blk2 (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v10).slice (win2_3.rect t)).set ↔ _
  rw [View.set_slice_whole, Rect.mem_set_unit]
  exact Iff.rfl

/-- Row r of the result is written back by point r / 512: the 16 blocks fill the array. -/
theorem cover2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ := idx_onto2 ⟨(i 0).val / 512, by omega⟩ ⟨(i 1).val / 1024, by omega⟩
  have q0 : win2_3.index t (0 : Fin 2) = (i 0).val / 512 := congrFun ht 0
  have q1 : win2_3.index t (1 : Fin 2) = (i 1).val / 1024 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- THE RESULT ARRAY after the region: the projection of the three arrays as the region finds them. -/
theorem final2 (c : Dev nD) :
    (dat2 (F := Ideal) V c).arrAt 3 cfg2.N = lin2 (V c main_v2) (V c main_arg7) (V c main_v9) :=
  (dat2 V c).arrAt_eq_of_cover 3 (lin2 (V c main_v2) (V c main_arg7) (V c main_v9)) (fun t _ => flushed2_eq V c t) cover2

end Cert.KernelIdeal.Gen.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

/-- The three activations and the result: batch 4, sequence 2048, width 1024. -/
abbrev SX : Shape := ⟨3, ![4, 2048, 1024]⟩
/-- A projection's weights, stored output-feature major: entry (e, d). -/
abbrev SW : Shape := ⟨2, ![1024, 1024]⟩
/-- A projection's bias. -/
abbrev SB : Shape := ⟨1, ![1024]⟩

/-- One entry of a projection: the row x[p, s, ·] against the weight row w[e, ·], plus the bias b[e]. -/
def linAt (x : SX.Idx → EReal) (w : SW.Idx → EReal) (b : SB.Idx → EReal) (p : Fin 4) (s : Fin 2048) (e : Fin 1024) : EReal :=
  (∑ d : Fin 1024, x (ix3 p s d) * w (ix2 e d)) + b (ix1 e)

/-- The projection as an array. -/
def lin (x : SX.Idx → EReal) (w : SW.Idx → EReal) (b : SB.Idx → EReal) : SX.Idx → EReal :=
  fun i => linAt x w b (i 0) (i 1) (i 2)

/-- The rectified score of query row q against key row k of batch p. -/
def scoreAt (Q K : SX.Idx → EReal) (p : Fin 4) (q k : Fin 2048) : EReal :=
  max (∑ e : Fin 1024, Q (ix3 p q e) * K (ix3 p k e)) 0

/-- The attention output summed over all 2048 keys at once. -/
def attnRefAt (Q K V : SX.Idx → EReal) (p : Fin 4) (q : Fin 2048) (d : Fin 1024) : EReal :=
  ∑ k : Fin 2048, scoreAt Q K p q k * V (ix3 p k d)

/-- Key row j of key block kb. -/
def kpos (kb : Fin 4) (j : Fin 512) : Fin 2048 := ⟨512 * kb.val + j.val, by omega⟩

/-- What one block of 512 keys contributes. -/
def blockTerm (Q K V : SX.Idx → EReal) (p : Fin 4) (q : Fin 2048) (d : Fin 1024) (kb : Fin 4) : EReal :=
  ∑ j : Fin 512, scoreAt Q K p q (kpos kb j) * V (ix3 p (kpos kb j) d)

/-- The attention output summed block of keys by block of keys. -/
def attnKerAt (Q K V : SX.Idx → EReal) (p : Fin 4) (q : Fin 2048) (d : Fin 1024) : EReal :=
  ∑ kb : Fin 4, blockTerm Q K V p q d kb

/-- Key row j of block kb is the image of (kb, j) under the standard bijection
    Fin 4 × Fin 512 ≃ Fin 2048, (a, b) ↦ b + 512 * a. -/
theorem kpos_eq_finProdFinEquiv (x : Fin 4 × Fin 512) :
    kpos x.1 x.2 = (finProdFinEquiv : Fin 4 × Fin 512 ≃ Fin 2048) x := by
  apply Fin.ext
  simp only [kpos, finProdFinEquiv, Equiv.coe_fn_mk]
  omega

/-- Re-indexing: any sum over the 2048 keys is the sum over the 4 blocks of the sums over
    each block's 512 keys (addition on the extended reals is commutative and associative). -/
theorem sum_blocks (f : Fin 2048 → EReal) :
    ∑ kb : Fin 4, ∑ j : Fin 512, f (kpos kb j) = ∑ k : Fin 2048, f k := by
  rw [← Fintype.sum_prod_type']
  refine Fintype.sum_equiv (finProdFinEquiv : Fin 4 × Fin 512 ≃ Fin 2048) _ _ (fun x => ?_)
  rw [kpos_eq_finProdFinEquiv]

/-- A sum over 2048 keys is the sum over 4 blocks of the sums over each block's 512 keys
    (only commutativity and associativity of addition: it holds on all extended reals). -/
theorem attnKerAt_eq_attnRefAt (Q K V : SX.Idx → EReal) (p : Fin 4) (q : Fin 2048) (d : Fin 1024) :
    attnKerAt Q K V p q d = attnRefAt Q K V p q d := by
  unfold attnKerAt attnRefAt blockTerm
  exact sum_blocks (fun k => scoreAt Q K p q k * V (ix3 p k d))

/-- The accumulator as the kernel builds it: zero, then one block's contribution added per step. -/
def accUpTo (Q K V : SX.Idx → EReal) (p : Fin 4) (q : Fin 2048) (d : Fin 1024) : (n : ℕ) → n < 4 → EReal
  | 0, h => 0 + blockTerm Q K V p q d ⟨0, h⟩
  | n + 1, h => accUpTo Q K V p q d n (Nat.lt_of_succ_lt h) + blockTerm Q K V p q d ⟨n + 1, h⟩

/-- After the fourth block the accumulator is the blockwise sum. -/
theorem accUpTo_three (Q K V : SX.Idx → EReal) (p : Fin 4) (q : Fin 2048) (d : Fin 1024) :
    accUpTo Q K V p q d 3 (by omega) = attnKerAt Q K V p q d := by
  show (((0 + blockTerm Q K V p q d ⟨0, _⟩) + blockTerm Q K V p q d ⟨1, _⟩)
      + blockTerm Q K V p q d ⟨2, _⟩) + blockTerm Q K V p q d ⟨3, _⟩ = _
  rw [attnKerAt, Fin.sum_univ_four, zero_add]
  rfl

def attnRef (Q K V : SX.Idx → EReal) : SX.Idx → EReal := fun i => attnRefAt Q K V (i 0) (i 1) (i 2)
def attnKer (Q K V : SX.Idx → EReal) : SX.Idx → EReal := fun i => attnKerAt Q K V (i 0) (i 1) (i 2)

theorem attnKer_eq_attnRef (Q K V : SX.Idx → EReal) : attnKer Q K V = attnRef Q K V :=
  funext fun i => attnKerAt_eq_attnRefAt Q K V (i 0) (i 1) (i 2)

/-- The whole computation, reference arrangement: three projections, rectified scores, one sum over all keys. -/
def refOut (a0 a1 a2 : SX.Idx → EReal) (a3 : SW.Idx → EReal) (a4 : SB.Idx → EReal) (a5 : SW.Idx → EReal) (a6 : SB.Idx → EReal)
    (a7 : SW.Idx → EReal) (a8 : SB.Idx → EReal) : SX.Idx → EReal :=
  attnRef (lin a0 a3 a4) (lin a1 a5 a6) (lin a2 a7 a8)

/-- The whole computation, kernel arrangement: the same, the keys taken 512 at a time. -/
def kerOut (a0 a1 a2 : SX.Idx → EReal) (a3 : SW.Idx → EReal) (a4 : SB.Idx → EReal) (a5 : SW.Idx → EReal) (a6 : SB.Idx → EReal)
    (a7 : SW.Idx → EReal) (a8 : SB.Idx → EReal) : SX.Idx → EReal :=
  attnKer (lin a0 a3 a4) (lin a1 a5 a6) (lin a2 a7 a8)

theorem kerOut_eq_refOut (a0 a1 a2 : SX.Idx → EReal) (a3 : SW.Idx → EReal) (a4 : SB.Idx → EReal) (a5 : SW.Idx → EReal) (a6 : SB.Idx → EReal)
    (a7 : SW.Idx → EReal) (a8 : SB.Idx → EReal) : kerOut a0 a1 a2 a3 a4 a5 a6 a7 a8 = refOut a0 a1 a2 a3 a4 a5 a6 a7 a8 :=
  attnKer_eq_attnRef _ _ _

end Cert.Spec

end
-- ==== Proof.KI.HostVal.lean ====
import proofs.«101586_j4587025072774_1_alg».proof.Proof.KI.Run
import proofs.«101586_j4587025072774_1_alg».proof.Proof.KI.LinVal0
import proofs.«101586_j4587025072774_1_alg».proof.Proof.KI.LinVal1
import proofs.«101586_j4587025072774_1_alg».proof.Proof.KI.LinVal2
import proofs.«101586_j4587025072774_1_alg».proof.Proof.Spec
import Idealize.ShloMosaic.Lib.StableHlo.Run
import Idealize.ShloMosaic.Lib.Pipeline.Value
import Idealize.ShloMosaic.Lib.ValueIdx
import Idealize.ShloMosaic.Lib.ValueLayout

/-!
# The kernel program's result array, read through the whole program

Each projection region works on the activations flattened to 8192 rows (row 2048·p + s is row s of batch p)
and on the bias as a one-row matrix; its 8192-row result is cut back into 4 batches of 2048 rows. Read entry by
entry, flattening, projecting and cutting back is the projection `Cert.Spec.lin` of the unflattened arrays.
The contents of the buffers are followed boundary by boundary: a region changes only its result array, a
stretch of reshapes only the buffers it writes; so the attention region finds the three projections of the
program's arguments, and its result array is `Cert.Spec.kerOut` of the nine arguments.
-/

set_option maxRecDepth 16384

noncomputable section

open scoped BigOperators

namespace Cert.KernelIdeal.Gen.Hand

open Idealize.ShloMosaic Idealize.ShloMosaic.TcCoe Idealize.SL.Sem
open Idealize.ShloMosaic.Pipeline (Dat Cfg Window)

/-! ## The three reshapes, entry by entry -/

section Reshapes
variable {α : Type}

/-- The activations flattened: row 2048·p + s of the 8192 is row s of batch p. -/
theorem flat_apply (x : S4x2048x1024.Idx → α) (h : S4x2048x1024.ShapeCasts S8192x1024) (p : Fin 4) (s : Fin 2048) (d : Fin 1024)
    (r : Fin 8192) (hr : r.val = 2048 * p.val + s.val) :
    shapeCast S8192x1024 x h (ValueIdx.ix2 r d) = x (ValueIdx.ix3 p s d) :=
  shapeCast_apply x h _ _ (by
    rw [Shape.rowMajor_val_three, Shape.rowMajor_val_two]
    show (p.val * 2048 + s.val) * 1024 + d.val = r.val * 1024 + d.val
    omega)

/-- A result cut back into batches: row s of batch p is row 2048·p + s of the 8192. -/
theorem unflat_apply (y : S8192x1024.Idx → α) (h : S8192x1024.ShapeCasts S4x2048x1024) (p : Fin 4) (s : Fin 2048) (e : Fin 1024)
    (r : Fin 8192) (hr : r.val = 2048 * p.val + s.val) :
    shapeCast S4x2048x1024 y h (ValueIdx.ix3 p s e) = y (ValueIdx.ix2 r e) :=
  shapeCast_apply y h _ _ (by
    rw [Shape.rowMajor_val_two, Shape.rowMajor_val_three]
    show r.val * 1024 + e.val = (p.val * 2048 + s.val) * 1024 + e.val
    omega)

end Reshapes

/-- Flatten, project the 8192 rows, cut back: the projection of the unflattened activations, entry by entry. -/
theorem proj_eq (x : S4x2048x1024.Idx → EReal) (w : S1024x1024.Idx → EReal) (b : S1024.Idx → EReal)
    (h1 : S4x2048x1024.ShapeCasts S8192x1024) (h2 : S1024.ShapeCasts S1x1024) (h3 : S8192x1024.ShapeCasts S4x2048x1024) :
    shapeCast S4x2048x1024 (lin2 (shapeCast S8192x1024 x h1) w (shapeCast S1x1024 b h2)) h3 = Cert.Spec.lin x w b := by
  funext i
  obtain ⟨p, s, e, rfl⟩ : ∃ (p : Fin 4) (s : Fin 2048) (e : Fin 1024), i = ValueIdx.ix3 p s e := ⟨i 0, i 1, i 2, ValueIdx.eq_ix3 i⟩
  have hr : 2048 * p.val + s.val < 8192 := by have := p.isLt; have := s.isLt; omega
  refine (unflat_apply _ h3 p s e ⟨2048 * p.val + s.val, hr⟩ rfl).trans ?_
  show lin2At (shapeCast S8192x1024 x h1) w (shapeCast S1x1024 b h2) ⟨2048 * p.val + s.val, hr⟩ e = Cert.Spec.linAt x w b p s e
  unfold lin2At Cert.Spec.linAt
  refine congrArg₂ (· + ·) (Finset.sum_congr rfl fun d _ => ?_) ?_
  · rw [flat_apply x h1 p s d ⟨2048 * p.val + s.val, hr⟩ rfl]
  · exact ValueIdx.shapeCast_a_1a_apply b h2 0 e

/-! ## What each stretch of reshapes writes, from any contents before it -/

section Stretches
variable (W : Valuation τ sig (Elt Ideal))

theorem stretch0_v0 : StableHlo.after (hostOps0 (F := Ideal)) W (Proc.devRef .tc main_v0)
    = shapeCast S8192x1024 (W (Proc.devRef .tc main_arg0) : S4x2048x1024.Idx → EReal) shapeCasts_S4x2048x1024_S8192x1024 := by
  after_results; rfl
theorem stretch0_v1 : StableHlo.after (hostOps0 (F := Ideal)) W (Proc.devRef .tc main_v1)
    = shapeCast S8192x1024 (W (Proc.devRef .tc main_arg1) : S4x2048x1024.Idx → EReal) shapeCasts_S4x2048x1024_S8192x1024 := by
  after_results; rfl
theorem stretch0_v2 : StableHlo.after (hostOps0 (F := Ideal)) W (Proc.devRef .tc main_v2)
    = shapeCast S8192x1024 (W (Proc.devRef .tc main_arg2) : S4x2048x1024.Idx → EReal) shapeCasts_S4x2048x1024_S8192x1024 := by
  after_results; rfl
theorem stretch0_v3 : StableHlo.after (hostOps0 (F := Ideal)) W (Proc.devRef .tc main_v3)
    = shapeCast S1x1024 (W (Proc.devRef .tc main_arg4) : S1024.Idx → EReal) shapeCasts_S1024_S1x1024 := by
  after_results; rfl
theorem stretch1_v5 : StableHlo.after (hostOps1 (F := Ideal)) W (Proc.devRef .tc main_v5)
    = shapeCast S4x2048x1024 (W (Proc.devRef .tc main_v4) : S8192x1024.Idx → EReal) shapeCasts_S8192x1024_S4x2048x1024 := by
  after_results; rfl
theorem stretch1_v6 : StableHlo.after (hostOps1 (F := Ideal)) W (Proc.devRef .tc main_v6)
    = shapeCast S1x1024 (W (Proc.devRef .tc main_arg6) : S1024.Idx → EReal) shapeCasts_S1024_S1x1024 := by
  after_results; rfl
theorem stretch2_v8 : StableHlo.after (hostOps2 (F := Ideal)) W (Proc.devRef .tc main_v8)
    = shapeCast S4x2048x1024 (W (Proc.devRef .tc main_v7) : S8192x1024.Idx → EReal) shapeCasts_S8192x1024_S4x2048x1024 := by
  after_results; rfl
theorem stretch2_v9 : StableHlo.after (hostOps2 (F := Ideal)) W (Proc.devRef .tc main_v9)
    = shapeCast S1x1024 (W (Proc.devRef .tc main_arg8) : S1024.Idx → EReal) shapeCasts_S1024_S1x1024 := by
  after_results; rfl
theorem stretch3_v11 : StableHlo.after (hostOps3 (F := Ideal)) W (Proc.devRef .tc main_v11)
    = shapeCast S4x2048x1024 (W (Proc.devRef .tc main_v10) : S8192x1024.Idx → EReal) shapeCasts_S8192x1024_S4x2048x1024 := by
  after_results; rfl

end Stretches

/-! ## The arrays each region finds, and the array it leaves -/

section Chain
variable (m : (ℓ : Loc nD τ sig) → Buf (Elt Ideal) ℓ) (c : Dev nD)

/-- The activations flattened to 8192 rows, a bias as a one-row matrix, a result cut back into batches. -/
abbrev flat (x : S4x2048x1024.Idx → EReal) : S8192x1024.Idx → EReal := shapeCast S8192x1024 x shapeCasts_S4x2048x1024_S8192x1024
abbrev row1 (b : S1024.Idx → EReal) : S1x1024.Idx → EReal := shapeCast S1x1024 b shapeCasts_S1024_S1x1024
abbrev unflat (y : S8192x1024.Idx → EReal) : S4x2048x1024.Idx → EReal := shapeCast S4x2048x1024 y shapeCasts_S8192x1024_S4x2048x1024

/-- Flatten, project, cut back is the projection. -/
theorem unflat_lin2 (x : S4x2048x1024.Idx → EReal) (w : S1024x1024.Idx → EReal) (b : S1024.Idx → EReal) :
    unflat (lin2 (flat x) w (row1 b)) = Cert.Spec.lin x w b :=
  proj_eq x w b _ _ _

/-- Region 0 finds the first activations flattened, its weights as launched, its bias as a row. -/
theorem W1_v0 : W1 m c (Proc.devRef .tc main_v0) = flat (m ((c : Thread nD τ).loc main_arg0)) := stretch0_v0 (W0 m c)
theorem W1_arg3 : W1 m c (Proc.devRef .tc main_arg3) = (m ((c : Thread nD τ).loc main_arg3)) := (W1_keep m c main_arg3 (by decide)).trans rfl
theorem W1_v3 : W1 m c (Proc.devRef .tc main_v3) = row1 (m ((c : Thread nD τ).loc main_arg4)) := stretch0_v3 (W0 m c)

/-- Region 0 leaves the flattened first projection. -/
theorem W2_v4 : W2 m c (Proc.devRef .tc main_v4) = lin2 (flat (m ((c : Thread nD τ).loc main_arg0))) (m ((c : Thread nD τ).loc main_arg3)) (row1 (m ((c : Thread nD τ).loc main_arg4))) := by
  refine (W2_arr m c 3).trans ((final0 (X1 m) c).trans ?_)
  show lin2 (W1 m c (Proc.devRef .tc main_v0)) (W1 m c (Proc.devRef .tc main_arg3)) (W1 m c (Proc.devRef .tc main_v3)) = _
  rw [W1_v0, W1_arg3, W1_v3]

/-- Region 1 finds the second activations flattened, its weights as launched, its bias as a row. -/
theorem W3_v1 : W3 m c (Proc.devRef .tc main_v1) = flat (m ((c : Thread nD τ).loc main_arg1)) :=
  (W3_keep m c main_v1 (by decide)).trans <| (W2_keep m c main_v1 (by decide)).trans <| stretch0_v1 (W0 m c)
theorem W3_arg5 : W3 m c (Proc.devRef .tc main_arg5) = (m ((c : Thread nD τ).loc main_arg5)) :=
  (W3_keep m c main_arg5 (by decide)).trans <| (W2_keep m c main_arg5 (by decide)).trans <| (W1_keep m c main_arg5 (by decide)).trans rfl
theorem W2_arg6 : W2 m c (Proc.devRef .tc main_arg6) = (m ((c : Thread nD τ).loc main_arg6)) :=
  (W2_keep m c main_arg6 (by decide)).trans <| (W1_keep m c main_arg6 (by decide)).trans rfl
theorem W3_v6 : W3 m c (Proc.devRef .tc main_v6) = row1 (m ((c : Thread nD τ).loc main_arg6)) :=
  (stretch1_v6 (W2 m c)).trans (congrArg row1 (W2_arg6 m c))

/-- Region 1 leaves the flattened second projection. -/
theorem W4_v7 : W4 m c (Proc.devRef .tc main_v7) = lin2 (flat (m ((c : Thread nD τ).loc main_arg1))) (m ((c : Thread nD τ).loc main_arg5)) (row1 (m ((c : Thread nD τ).loc main_arg6))) := by
  refine (W4_arr m c 3).trans ((final1 (X3 m) c).trans ?_)
  show lin2 (W3 m c (Proc.devRef .tc main_v1)) (W3 m c (Proc.devRef .tc main_arg5)) (W3 m c (Proc.devRef .tc main_v6)) = _
  rw [W3_v1, W3_arg5, W3_v6]

/-- Region 2 finds the third activations flattened, its weights as launched, its bias as a row. -/
theorem W5_v2 : W5 m c (Proc.devRef .tc main_v2) = flat (m ((c : Thread nD τ).loc main_arg2)) :=
  (W5_keep m c main_v2 (by decide)).trans <| (W4_keep m c main_v2 (by decide)).trans <| (W3_keep m c main_v2 (by decide)).trans <|
    (W2_keep m c main_v2 (by decide)).trans <| stretch0_v2 (W0 m c)
theorem W5_arg7 : W5 m c (Proc.devRef .tc main_arg7) = (m ((c : Thread nD τ).loc main_arg7)) :=
  (W5_keep m c main_arg7 (by decide)).trans <| (W4_keep m c main_arg7 (by decide)).trans <| (W3_keep m c main_arg7 (by decide)).trans <|
    (W2_keep m c main_arg7 (by decide)).trans <| (W1_keep m c main_arg7 (by decide)).trans rfl
theorem W4_arg8 : W4 m c (Proc.devRef .tc main_arg8) = (m ((c : Thread nD τ).loc main_arg8)) :=
  (W4_keep m c main_arg8 (by decide)).trans <| (W3_keep m c main_arg8 (by decide)).trans <|
    (W2_keep m c main_arg8 (by decide)).trans <| (W1_keep m c main_arg8 (by decide)).trans rfl
theorem W5_v9 : W5 m c (Proc.devRef .tc main_v9) = row1 (m ((c : Thread nD τ).loc main_arg8)) :=
  (stretch2_v9 (W4 m c)).trans (congrArg row1 (W4_arg8 m c))

/-- Region 2 leaves the flattened third projection. -/
theorem W6_v10 : W6 m c (Proc.devRef .tc main_v10) = lin2 (flat (m ((c : Thread nD τ).loc main_arg2))) (m ((c : Thread nD τ).loc main_arg7)) (row1 (m ((c : Thread nD τ).loc main_arg8))) := by
  refine (W6_arr m c 3).trans ((final2 (X5 m) c).trans ?_)
  show lin2 (W5 m c (Proc.devRef .tc main_v2)) (W5 m c (Proc.devRef .tc main_arg7)) (W5 m c (Proc.devRef .tc main_v9)) = _
  rw [W5_v2, W5_arg7, W5_v9]

/-- The attention region finds the three projections of the program's arguments: queries, -/
theorem W7_v5 : W7 m c (Proc.devRef .tc main_v5) = Cert.Spec.lin (m ((c : Thread nD τ).loc main_arg0)) (m ((c : Thread nD τ).loc main_arg3)) (m ((c : Thread nD τ).loc main_arg4)) :=
  (W7_keep m c main_v5 (by decide)).trans <| (W6_keep m c main_v5 (by decide)).trans <| (W5_keep m c main_v5 (by decide)).trans <|
    (W4_keep m c main_v5 (by decide)).trans <| (stretch1_v5 (W2 m c)).trans <| (congrArg unflat (W2_v4 m c)).trans (unflat_lin2 _ _ _)
/-- keys, -/
theorem W7_v8 : W7 m c (Proc.devRef .tc main_v8) = Cert.Spec.lin (m ((c : Thread nD τ).loc main_arg1)) (m ((c : Thread nD τ).loc main_arg5)) (m ((c : Thread nD τ).loc main_arg6)) :=
  (W7_keep m c main_v8 (by decide)).trans <| (W6_keep m c main_v8 (by decide)).trans <|
    (stretch2_v8 (W4 m c)).trans <| (congrArg unflat (W4_v7 m c)).trans (unflat_lin2 _ _ _)
/-- values. -/
theorem W7_v11 : W7 m c (Proc.devRef .tc main_v11) = Cert.Spec.lin (m ((c : Thread nD τ).loc main_arg2)) (m ((c : Thread nD τ).loc main_arg7)) (m ((c : Thread nD τ).loc main_arg8)) :=
  (stretch3_v11 (W6 m c)).trans <| (congrArg unflat (W6_v10 m c)).trans (unflat_lin2 _ _ _)

/-- THE RESULT ARRAY, given what the attention region's write-backs leave as a function of the three arrays it finds. -/
theorem result_eq_of
    (h3 : (dat3 (X7 m) c).arrAt 3 cfg3.N = Cert.Spec.attnKer (X7 m c main_v5) (X7 m c main_v8) (X7 m c main_v11)) :
    W8 m c (Proc.devRef .tc main_v12) = Cert.Spec.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_result m c).trans (h3.trans ?_)
  show Cert.Spec.attnKer (W7 m c (Proc.devRef .tc main_v5)) (W7 m c (Proc.devRef .tc main_v8)) (W7 m c (Proc.devRef .tc main_v11)) = _
  rw [W7_v5, W7_v8, W7_v11]
  rfl

end Chain

/-! ## The run, read -/

section RunValue
variable (m : (ℓ : Loc nD τ sig) → Buf (Elt Ideal) ℓ) (ρ : Dev nD → PrngReg)

/-- Every weakly fair execution terminates with the result array at `Cert.Spec.kerOut` of the nine arguments and every argument as launched. -/
theorem run_value_of (h3 : ∀ c : Dev nD, (dat3 (X7 m) c).arrAt 3 cfg3.N = Cert.Spec.attnKer (X7 m c main_v5) (X7 m c main_v8) (X7 m c main_v11)) : θ_run defs (onTc (τ := τ) (main (F := Ideal))) ⟨m, fun _ => 0, ρ⟩ (fun r => ∀ c : Dev nD,
      r.2.mem ((c.tc : Thread nD τ).loc main_v12) = Cert.Spec.kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_v12 (by decide))).trans (result_eq_of m c (h3 c)),
     (h c _ (mem_uc main_arg0 (by decide))).trans (W8_launch m c main_arg0 (by decide) (by decide) (by decide) (by decide) (by decide) (by decide) (by decide) (by decide)),
     (h c _ (mem_uc main_arg1 (by decide))).trans (W8_launch m c main_arg1 (by decide) (by decide) (by decide) (by decide) (by decide) (by decide) (by decide) (by decide)),
     (h c _ (mem_uc main_arg2 (by decide))).trans (W8_launch m c main_arg2 (by decide) (by decide) (by decide) (by decide) (by decide) (by decide) (by decide) (by decide)),
     (h c _ (mem_uc main_arg3 (by decide))).trans (W8_launch m c main_arg3 (by decide) (by decide) (by decide) (by decide) (by decide) (by decide) (by decide) (by decide)),
     (h c _ (mem_uc main_arg4 (by decide))).trans (W8_launch m c main_arg4 (by decide) (by decide) (by decide) (by decide) (by decide) (by decide) (by decide) (by decide)),
     (h c _ (mem_uc main_arg5 (by decide))).trans (W8_launch m c main_arg5 (by decide) (by decide) (by decide) (by decide) (by decide) (by decide) (by decide) (by decide)),
     (h c _ (mem_uc main_arg6 (by decide))).trans (W8_launch m c main_arg6 (by decide) (by decide) (by decide) (by decide) (by decide) (by decide) (by decide) (by decide)),
     (h c _ (mem_uc main_arg7 (by decide))).trans (W8_launch m c main_arg7 (by decide) (by decide) (by decide) (by decide) (by decide) (by decide) (by decide) (by decide)),
     (h c _ (mem_uc main_arg8 (by decide))).trans (W8_launch m c main_arg8 (by decide) (by decide) (by decide) (by decide) (by decide) (by decide) (by decide) (by decide))⟩)
    (run_all m ρ)

end RunValue

end Cert.KernelIdeal.Gen.Hand

end
-- ==== Proof.KI.AttnPieces.lean ====
import proofs.«101586_j4587025072774_1_alg».proof.Proof.KI.Attn
import Idealize.ShloMosaic.Lib.Pipeline.Value

/-!
# What each control case of the attention body leaves, as the body's payloads

The accumulator after a point is the update payload (the scores of the point's query and key blocks, rectified,
times the value block, added to the accumulator coming in) — over the zero payload at the first point of a group
of four, over what the point before left otherwise —, and at the last point of a group the result buffer takes the
accumulator just stored, with a unit axis added in front.
-/

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The accesses' offsets are zero on every axis. -/
theorem off2_zero : (![0, 0] : Fin 2 → Nat) = fun _ => 0 := funext fun a => by fin_cases a <;> rfl
theorem off3_zero : (![0, 0, 0] : Fin 3 → Nat) = fun _ => 0 := funext fun a => by fin_cases a <;> rfl

/-- First point of a group: the update over the zero payload. -/
theorem sout3_A_0_eq (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : cond3_0 i) (hc1 : ¬cond3_1 i)
    (x0 x1 x2 : Vec F S1x512x1024 .f32) :
    sout3_A_0 c i arg3 harg3 arg4 harg4 arg5 harg5 arg6 harg6 arg7 harg7 hc0 hc1 x0 x1 x2 = k3_pay2 x0 x1 x2 (k3_pay1 (F := F)) := by
  unfold sout3_A_0
  rw [View.read_writes_eq_canon _ _ _ (scover3_A_0 c i arg3 harg3 arg4 harg4 arg5 harg5 arg6 harg6 arg7 harg7 hc0 hc1 x0 x1 x2)]
  unfold kernelRun3_A
  dsimp only
  sl_unfold_words
  rw [View.canon_cons_unit_zero (S := S512x1024) off2_zero, View.readCov_unit_zero (S := S512x1024) _ off2_zero]
  simp only [View.readAt_eq_ld, harg3.read_unread, harg4.read_unread, harg5.read_unread, View.ld_unit_zero (S := S1x512x1024) off3_zero]

/-- A middle point: the update over what came in. -/
theorem sout3_B_0_eq (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : ¬cond3_1 i)
    (x0 x1 x2 : Vec F S1x512x1024 .f32) (xs0 : Vec F S512x1024 .f32) :
    sout3_B_0 c i arg3 harg3 arg4 harg4 arg5 harg5 arg6 harg6 arg7 harg7 hc0 hc1 x0 x1 x2 xs0 = k3_pay2 x0 x1 x2 xs0 := by
  unfold sout3_B_0
  rw [View.read_writes_eq_canon _ _ _ (scover3_B_0 c i arg3 harg3 arg4 harg4 arg5 harg5 arg6 harg6 arg7 harg7 hc0 hc1 x0 x1 x2 xs0)]
  unfold kernelRun3_B
  dsimp only
  sl_unfold_words
  rw [View.canon_unit_zero (S := S512x1024) off2_zero]
  simp only [View.readAt_eq_ld, harg3.read_unread, harg4.read_unread, harg5.read_unread, harg7.read_unread, View.ld_unit_zero (S := S1x512x1024) off3_zero, View.ld_unit_zero (S := S512x1024) off2_zero]

/-- The last point of a group: the same update, -/
theorem sout3_C_0_eq (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : cond3_1 i)
    (x0 x1 x2 : Vec F S1x512x1024 .f32) (xs0 : Vec F S512x1024 .f32) :
    sout3_C_0 c i arg3 harg3 arg4 harg4 arg5 harg5 arg6 harg6 arg7 harg7 hc0 hc1 x0 x1 x2 xs0 = k3_pay2 x0 x1 x2 xs0 := by
  unfold sout3_C_0
  rw [View.read_writes_eq_canon _ _ _ (scover3_C_0 c i arg3 harg3 arg4 harg4 arg5 harg5 arg6 harg6 arg7 harg7 hc0 hc1 x0 x1 x2 xs0)]
  unfold kernelRun3_C
  dsimp only
  sl_unfold_words
  rw [View.canon_unit_zero (S := S512x1024) off2_zero]
  simp only [View.readAt_eq_ld, harg3.read_unread, harg4.read_unread, harg5.read_unread, harg7.read_unread, View.ld_unit_zero (S := S1x512x1024) off3_zero, View.ld_unit_zero (S := S512x1024) off2_zero]

/-- and the result buffer takes it, a unit axis in front. -/
theorem out3_C_3_eq (c : Dev nD) (i : grid3.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond3_0 i) (hc1 : cond3_1 i)
    (x0 x1 x2 : Vec F S1x512x1024 .f32) (xs0 : Vec F S512x1024 .f32) :
    out3_C_3 c i arg3 harg3 arg4 harg4 arg5 harg5 arg6 harg6 arg7 harg7 hc0 hc1 x0 x1 x2 xs0 = k3_pay3 (k3_pay2 x0 x1 x2 xs0) := by
  unfold out3_C_3
  rw [View.read_writes_eq_canon _ _ _ (cover3_C_3 c i arg3 harg3 arg4 harg4 arg5 harg5 arg6 harg6 arg7 harg7 hc0 hc1 x0 x1 x2 xs0)]
  unfold kernelRun3_C
  dsimp only
  sl_unfold_words
  rw [View.canon_unit_zero (S := S1x512x1024) off3_zero, View.readCov_unit_zero (S := S512x1024) _ off2_zero]
  simp only [View.readAt_eq_ld, harg3.read_unread, harg4.read_unread, harg5.read_unread, harg7.read_unread, View.ld_unit_zero (S := S1x512x1024) off3_zero, View.ld_unit_zero (S := S512x1024) off2_zero]

end Cert.KernelIdeal.Gen.Hand

end
-- ==== Proof.KI.AttnPay.lean ====
import proofs.«101586_j4587025072774_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The attention region's three stored values, entry by entry

One grid point of the attention region holds a block of 512 query rows, a block of 512 key rows and the
matching 512 value rows of one batch, each 1024 wide, and a 512 × 1024 accumulator. Its first store (at
the first key block only) clears the accumulator: every entry 0. Its second store adds one key block's
contribution: entry (q, d) becomes the accumulator's entry plus the sum over the block's 512 keys j of
max(⟨query row q, key row j⟩, 0) · value[j, d], the inner product a sum over the 1024 features, both
products into a zero accumulator. Its third store (at the last key block only) copies the accumulator
out under a leading unit axis. The changes of float format on the way are the identity on the extended
reals.
-/

set_option maxRecDepth 16384

noncomputable section

open scoped BigOperators

namespace Cert.KernelIdeal.Gen.Hand

open Idealize.ShloMosaic Idealize.ShloMosaic.ValueIdx

/-! ## The score product: queries against keys, both contracted along the features -/

/-- The left operand is read at the output's row … -/
theorem lhs_qk_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- … and the contracted position; -/
theorem lhs_qk_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
/-- the right operand at the output's column, as its row (key row j), … -/
theorem rhs_qk_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- … and the contracted position. -/
theorem rhs_qk_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The score product into a zero accumulator, at entry (q, j): the sum over e of a[q, e] · b[j, e]. -/
theorem matmul_qk_apply {φ₁ φ₂ : FTy} (a : FVec Ideal S512x1024 φ₁) (b : FVec Ideal S512x1024 φ₂) (q j : Fin 512) :
    (matmul dot_S512x1024_S512x1024_S512x512_1_1_0_0_n_n none a b (constant (F := Ideal) S512x512 .f32 0x00000000#32) : FVec Ideal S512x512 .f32) (ix2 q j)
      = ∑ e : Fin 1024, a (ix2 q e) * b (ix2 j e) := by
  refine (Ideal.matmul_constant_zero_apply dot_S512x1024_S512x1024_S512x512_1_1_0_0_n_n none a b (ix2 q j)).trans ?_
  rw [← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 q j) ((ValueIdx.contrEquiv1 dot_S512x1024_S512x1024_S512x512_1_1_0_0_n_n 1024 rfl rfl).symm k) = ix2 q k := funext fun c => Fin.ext (by
    match c with
    | ⟨0, _⟩ => exact lhs_qk_0 _ _
    | ⟨1, _⟩ => exact (lhs_qk_1 _ _).trans hk)
  have er : dot_S512x1024_S512x1024_S512x512_1_1_0_0_n_n.rhsIdx (ix2 q j) ((ValueIdx.contrEquiv1 dot_S512x1024_S512x1024_S512x512_1_1_0_0_n_n 1024 rfl rfl).symm k) = ix2 j k := funext fun c => Fin.ext (by
    match c with
    | ⟨0, _⟩ => exact rhs_qk_0 _ _
    | ⟨1, _⟩ => exact (rhs_qk_1 _ _).trans hk)
  rw [el, er]

/-! ## The value product: scores against values, the scores' columns contracted with the values' rows -/

/-- The left operand is read at the output's row … -/
theorem lhs_sv_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
/-- … and the contracted position; -/
theorem lhs_sv_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
/-- the right operand at the contracted position, as its row, … -/
theorem rhs_sv_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
/-- … and the output's column. -/
theorem rhs_sv_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The value product into a zero accumulator, at entry (q, d): the sum over j of a[q, j] · b[j, d]. -/
theorem matmul_sv_apply {φ₁ φ₂ : FTy} (a : FVec Ideal S512x512 φ₁) (b : FVec Ideal S512x1024 φ₂) (q : Fin 512) (d : Fin 1024) :
    (matmul dot_S512x512_S512x1024_S512x1024_1_0_0_1_n_n none a b (constant (F := Ideal) S512x1024 .f32 0x00000000#32) : FVec Ideal S512x1024 .f32) (ix2 q d)
      = ∑ j : Fin 512, a (ix2 q j) * b (ix2 j d) := by
  refine (Ideal.matmul_constant_zero_apply dot_S512x512_S512x1024_S512x1024_1_0_0_1_n_n none a b (ix2 q d)).trans ?_
  rw [← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 q d) ((ValueIdx.contrEquiv1 dot_S512x512_S512x1024_S512x1024_1_0_0_1_n_n 512 rfl rfl).symm k) = ix2 q k := funext fun c => Fin.ext (by
    match c with
    | ⟨0, _⟩ => exact lhs_sv_0 _ _
    | ⟨1, _⟩ => exact (lhs_sv_1 _ _).trans hk)
  have er : dot_S512x512_S512x1024_S512x1024_1_0_0_1_n_n.rhsIdx (ix2 q d) ((ValueIdx.contrEquiv1 dot_S512x512_S512x1024_S512x1024_1_0_0_1_n_n 512 rfl rfl).symm k) = ix2 k d := funext fun c => Fin.ext (by
    match c with
    | ⟨0, _⟩ => exact (rhs_sv_0 _ _).trans hk
    | ⟨1, _⟩ => exact rhs_sv_1 _ _)
  rw [el, er]

/-! ## The three stored values -/

/-- The first store clears the accumulator. -/
theorem k3_pay1_apply (q : Fin 512) (d : Fin 1024) : k3_pay1 (F := Ideal) (ix2 q d) = 0 := by
  unfold k3_pay1
  rw [shapeCast_self]
  exact Ideal.ofBits_zero_f32

/-- The second store: the accumulator plus one key block's contribution. -/
theorem k3_pay2_apply (v3 v6 v9 : Vec Ideal S1x512x1024 .f32) (v16 : Vec Ideal S512x1024 .f32) (q : Fin 512) (d : Fin 1024) :
    k3_pay2 (F := Ideal) v3 v6 v9 v16 (ix2 q d)
      = v16 (ix2 q d) + ∑ j : Fin 512, max (∑ e : Fin 1024, v3 (ix3 (0 : Fin 1) q e) * v6 (ix3 (0 : Fin 1) j e)) 0 * v9 (ix3 (0 : Fin 1) j d) := by
  unfold k3_pay2
  rw [shapeCast_self]
  refine (ValueIdx.addf_apply _ _ (ix2 q d)).trans ?_
  refine congrArg (v16 (ix2 q d) + ·) ?_
  refine (matmul_sv_apply _ _ q d).trans ?_
  refine Finset.sum_congr rfl fun j _ => ?_
  refine congrArg₂ (· * ·) ?_ ?_
  · show max _ (Ideal.ofBits .f32 0x00000000#32) = max _ 0
    rw [Ideal.ofBits_zero_f32]
    refine congrArg (max · (0 : EReal)) ?_
    refine (matmul_qk_apply _ _ q j).trans ?_
    refine Finset.sum_congr rfl fun e _ => ?_
    refine congrArg₂ (· * ·) ?_ ?_
    · exact shapeCast_1ab_ab_apply v3 shapeCasts_S1x512x1024_S512x1024 q e
    · exact shapeCast_1ab_ab_apply v6 shapeCasts_S1x512x1024_S512x1024 j e
  · exact shapeCast_1ab_ab_apply v9 shapeCasts_S1x512x1024_S512x1024 j d

/-- The third store copies the accumulator out under a leading unit axis. -/
theorem k3_pay3_apply (v25 : Vec Ideal S512x1024 .f32) (q : Fin 512) (d : Fin 1024) :
    k3_pay3 (F := Ideal) v25 (ix3 (0 : Fin 1) q d) = v25 (ix2 q d) := by
  unfold k3_pay3
  exact shapeCast_ab_1ab_apply v25 shapeCasts_S512x1024_S1x512x1024 (0 : Fin 1) q d

end Cert.KernelIdeal.Gen.Hand

end
-- ==== Proof.KI.AttnVal.lean ====
import proofs.«101586_j4587025072774_1_alg».proof.Proof.KI.Attn
import proofs.«101586_j4587025072774_1_alg».proof.Proof.KI.AttnPieces
import proofs.«101586_j4587025072774_1_alg».proof.Proof.KI.AttnPay
import proofs.«101586_j4587025072774_1_alg».proof.Proof.Spec
import Idealize.ShloMosaic.Lib.Pipeline.Value
import Idealize.ShloMosaic.Lib.ValueIdx

/-!
# What the attention region's result array holds after its 64 points

Point t of the 4 × 4 × 4 grid is (b, qi, ki) with t = 16·b + 4·qi + ki: it holds query rows 512·qi … of batch b,
key and value rows 512·ki … of batch b. Over the four points of one (b, qi) the accumulator's entry (q, d) runs
through 0 + block 0, … + block 1, … + block 2, … + block 3 of the key blocks' contributions to output row
512·qi + q of batch b; the fourth point copies it to the result block (b, qi), which is written back there. The
64 / 4 = 16 written blocks tile the result array, so it ends holding the blockwise sum at every index.
-/

set_option maxRecDepth 16384

noncomputable section

open scoped BigOperators

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The three input arrays as the region finds them: queries, keys, values, each 4 × 2048 × 1024. -/
abbrev qArr (c : Dev nD) : S4x2048x1024.Idx → EReal := V c main_v5
abbrev kArr (c : Dev nD) : S4x2048x1024.Idx → EReal := V c main_v8
abbrev vArr (c : Dev nD) : S4x2048x1024.Idx → EReal := V c main_v11

/-- The three input blocks of a point. -/
abbrev qBlk (c : Dev nD) (t : Fin cfg3.N) : Vec Ideal S1x512x1024 .f32 := iblk3 V c 0 t
abbrev kBlk (c : Dev nD) (t : Fin cfg3.N) : Vec Ideal S1x512x1024 .f32 := iblk3 V c 1 t
abbrev vBlk (c : Dev nD) (t : Fin cfg3.N) : Vec Ideal S1x512x1024 .f32 := iblk3 V c 2 t

/-! ## Where a point's blocks sit -/

/-- The index maps over the grid: batch t / 16 everywhere; the query and result blocks at (t / 4) % 4, the key and value
    blocks at t % 4; the feature axis whole. -/
theorem idx_facts3 : ∀ t : Fin cfg3.N,
    win3_0.index t (0 : Fin 3) = t.val / 16 ∧ win3_0.index t (1 : Fin 3) = (t.val / 4) % 4 ∧ win3_0.index t (2 : Fin 3) = 0
    ∧ win3_1.index t (0 : Fin 3) = t.val / 16 ∧ win3_1.index t (1 : Fin 3) = t.val % 4 ∧ win3_1.index t (2 : Fin 3) = 0
    ∧ win3_2.index t (0 : Fin 3) = t.val / 16 ∧ win3_2.index t (1 : Fin 3) = t.val % 4 ∧ win3_2.index t (2 : Fin 3) = 0
    ∧ win3_3.index t (0 : Fin 3) = t.val / 16 ∧ win3_3.index t (1 : Fin 3) = (t.val / 4) % 4 ∧ win3_3.index t (2 : Fin 3) = 0 :=
  (by decide +kernel : ∀ t : Fin grid3.N, _)

/-- The query block's entry (0, q, e) is the query array's entry (b, r, e), r the q-th row of the point's query block. -/
theorem qBlk_apply (c : Dev nD) (t : Fin cfg3.N) (b : Fin 4) (r : Fin 2048) (q : Fin 512) (e : Fin 1024)
    (hb : b.val = t.val / 16) (hr : r.val = 512 * ((t.val / 4) % 4) + q.val) :
    qBlk V c t (ix3 (0 : Fin 1) q e) = qArr V c (ix3 b r e) := by
  obtain ⟨e00, e01, e02, e10, e11, e12, e20, e21, e22, e30, e31, e32⟩ := idx_facts3 t
  show iblk3 V c 0 t (ix3 (0 : Fin 1) q e) = V c main_v5 (ix3 b r e)
  unfold iblk3
  rw [View.read_apply]
  show V c main_v5 (((cfg3.win 0).blk t).view.emb (ix3 (0 : Fin 1) q e)) = V c main_v5 (ix3 b r e)
  refine congrArg (V c main_v5) ?_
  funext a; apply Fin.ext
  match a with
  | ⟨0, _⟩ => show win3_0.index t (0 : Fin 3) * 1 + 1 * 0 = b.val; omega
  | ⟨1, _⟩ => show win3_0.index t (1 : Fin 3) * 512 + 1 * q.val = r.val; omega
  | ⟨2, _⟩ => show win3_0.index t (2 : Fin 3) * 1024 + 1 * e.val = e.val; omega

/-- The key block's entry (0, j, e) is the key array's entry (b, r, e), r the j-th row of the point's key block. -/
theorem kBlk_apply (c : Dev nD) (t : Fin cfg3.N) (b : Fin 4) (r : Fin 2048) (j : Fin 512) (e : Fin 1024)
    (hb : b.val = t.val / 16) (hr : r.val = 512 * (t.val % 4) + j.val) :
    kBlk V c t (ix3 (0 : Fin 1) j e) = kArr V c (ix3 b r e) := by
  obtain ⟨e00, e01, e02, e10, e11, e12, e20, e21, e22, e30, e31, e32⟩ := idx_facts3 t
  show iblk3 V c 1 t (ix3 (0 : Fin 1) j e) = V c main_v8 (ix3 b r e)
  unfold iblk3
  rw [View.read_apply]
  show V c main_v8 (((cfg3.win 1).blk t).view.emb (ix3 (0 : Fin 1) j e)) = V c main_v8 (ix3 b r e)
  refine congrArg (V c main_v8) ?_
  funext a; apply Fin.ext
  match a with
  | ⟨0, _⟩ => show win3_1.index t (0 : Fin 3) * 1 + 1 * 0 = b.val; omega
  | ⟨1, _⟩ => show win3_1.index t (1 : Fin 3) * 512 + 1 * j.val = r.val; omega
  | ⟨2, _⟩ => show win3_1.index t (2 : Fin 3) * 1024 + 1 * e.val = e.val; omega

/-- The value block's entry (0, j, d) is the value array's entry (b, r, d), r the j-th row of the point's value block. -/
theorem vBlk_apply (c : Dev nD) (t : Fin cfg3.N) (b : Fin 4) (r : Fin 2048) (j : Fin 512) (d : Fin 1024)
    (hb : b.val = t.val / 16) (hr : r.val = 512 * (t.val % 4) + j.val) :
    vBlk V c t (ix3 (0 : Fin 1) j d) = vArr V c (ix3 b r d) := by
  obtain ⟨e00, e01, e02, e10, e11, e12, e20, e21, e22, e30, e31, e32⟩ := idx_facts3 t
  show iblk3 V c 2 t (ix3 (0 : Fin 1) j d) = V c main_v11 (ix3 b r d)
  unfold iblk3
  rw [View.read_apply]
  show V c main_v11 (((cfg3.win 2).blk t).view.emb (ix3 (0 : Fin 1) j d)) = V c main_v11 (ix3 b r d)
  refine congrArg (V c main_v11) ?_
  funext a; apply Fin.ext
  match a with
  | ⟨0, _⟩ => show win3_2.index t (0 : Fin 3) * 1 + 1 * 0 = b.val; omega
  | ⟨1, _⟩ => show win3_2.index t (1 : Fin 3) * 512 + 1 * j.val = r.val; omega
  | ⟨2, _⟩ => show win3_2.index t (2 : Fin 3) * 1024 + 1 * d.val = d.val; omega

/-! ## The accumulator's closed form, read where the induction needs it -/

/-- At equal arguments. -/
theorem accUpTo_congr (Q K W : Cert.Spec.SX.Idx → EReal) {p p' : Fin 4} {r r' : Fin 2048} (d : Fin 1024) {k k' : ℕ}
    (h : k < 4) (h' : k' < 4) (hp : p = p') (hr : r = r') (hk : k = k') :
    Cert.Spec.accUpTo Q K W p r d k h = Cert.Spec.accUpTo Q K W p' r' d k' h' := by
  subst hp hr hk; rfl

/-- At the first key block: zero plus the block's contribution. -/
theorem accUpTo_first (Q K W : Cert.Spec.SX.Idx → EReal) (p : Fin 4) (r : Fin 2048) (d : Fin 1024) (k : ℕ) (h : k < 4) (hk : k = 0) :
    Cert.Spec.accUpTo Q K W p r d k h = 0 + Cert.Spec.blockTerm Q K W p r d ⟨k, h⟩ := by
  subst hk; rfl

/-- At a later key block: the accumulator before plus the block's contribution. -/
theorem accUpTo_next (Q K W : Cert.Spec.SX.Idx → EReal) (p : Fin 4) (r : Fin 2048) (d : Fin 1024) (k : ℕ) (h : k < 4) (hk : ¬k = 0) :
    Cert.Spec.accUpTo Q K W p r d k h
      = Cert.Spec.accUpTo Q K W p r d (k - 1) (Nat.lt_of_le_of_lt (Nat.sub_le _ _) h) + Cert.Spec.blockTerm Q K W p r d ⟨k, h⟩ := by
  cases k with
  | zero => exact absurd rfl hk
  | succ n => rfl

/-- The blockwise sum at equal arguments. -/
theorem attnKerAt_congr (Q K W : Cert.Spec.SX.Idx → EReal) {p p' : Fin 4} {r r' : Fin 2048} {d d' : Fin 1024}
    (hp : p = p') (hr : r = r') (hd : d = d') :
    Cert.Spec.attnKerAt Q K W p r d = Cert.Spec.attnKerAt Q K W p' r' d' := by
  subst hp hr hd; rfl

/-! ## One point's contribution -/

/-- What a point adds to the accumulator's entry (q, d) is its key block's contribution to output row r of batch b. -/
theorem block_sum (c : Dev nD) (t : Fin cfg3.N) (b : Fin 4) (r : Fin 2048) (q : Fin 512) (d : Fin 1024) (kb : Fin 4)
    (hb : b.val = t.val / 16) (hr : r.val = 512 * ((t.val / 4) % 4) + q.val) (hkb : kb.val = t.val % 4) :
    (∑ j : Fin 512, max (∑ e : Fin 1024, qBlk V c t (ix3 (0 : Fin 1) q e) * kBlk V c t (ix3 (0 : Fin 1) j e)) 0 * vBlk V c t (ix3 (0 : Fin 1) j d))
      = Cert.Spec.blockTerm (qArr V c) (kArr V c) (vArr V c) b r d kb := by
  unfold Cert.Spec.blockTerm Cert.Spec.scoreAt
  refine Finset.sum_congr rfl fun j _ => ?_
  have hk : (Cert.Spec.kpos kb j).val = 512 * (t.val % 4) + j.val := by
    show 512 * kb.val + j.val = _
    rw [hkb]
  refine congrArg₂ (· * ·) ?_ (vBlk_apply V c t b (Cert.Spec.kpos kb j) j d hb hk)
  refine congrArg (max · (0 : EReal)) ?_
  refine Finset.sum_congr rfl fun e _ => ?_
  exact congrArg₂ (· * ·) (qBlk_apply V c t b r q e hb hr) (kBlk_apply V c t b (Cert.Spec.kpos kb j) j e hb hk)

/-! ## The invariant: the accumulator after point t -/

/-- At the first point of a group of four: zero plus block 0. -/
theorem acc_A (c : Dev nD) (t : Fin cfg3.N) (h0 : t.val % 4 = 0) (q : Fin 512) (d : Fin 1024) (b : Fin 4) (r : Fin 2048)
    (hb : b.val = t.val / 16) (hr : r.val = 512 * ((t.val / 4) % 4) + q.val) :
    (outsAt3 V c t.val t.isLt).2 (ix2 q d)
      = Cert.Spec.accUpTo (qArr V c) (kArr V c) (vArr V c) b r d (t.val % 4) (Nat.mod_lt _ (by decide)) := by
  have h1 : ¬t.val % 4 = 3 := by omega
  rw [accUpTo_first _ _ _ _ _ _ _ _ h0, outsAt3_A V c t h0 h1]
  dsimp only
  refine (congrFun (sout3_A_0_eq (F := Ideal) c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (qBlk V c t) (kBlk V c t) (vBlk V c t)) (ix2 q d)).trans ?_
  refine (k3_pay2_apply (qBlk V c t) (kBlk V c t) (vBlk V c t) (k3_pay1 (F := Ideal)) q d).trans ?_
  exact congrArg₂ (· + ·) (k3_pay1_apply q d) (block_sum V c t b r q d ⟨t.val % 4, Nat.mod_lt _ (by decide)⟩ hb hr rfl)

/-- At a later point of the group: what the point before left plus this point's block. -/
theorem acc_BC (c : Dev nD) (t : Fin cfg3.N) (h0 : ¬t.val % 4 = 0) (q : Fin 512) (d : Fin 1024) (b : Fin 4) (r : Fin 2048)
    (hb : b.val = t.val / 16) (hr : r.val = 512 * ((t.val / 4) % 4) + q.val)
    (ih : (outsAt3 V c (t.val - 1) (Nat.lt_of_le_of_lt (Nat.sub_le _ _) t.isLt)).2 (ix2 q d)
      = Cert.Spec.accUpTo (qArr V c) (kArr V c) (vArr V c) b r d (t.val % 4 - 1) (Nat.lt_of_le_of_lt (Nat.sub_le _ _) (Nat.mod_lt _ (by decide)))) :
    (outsAt3 V c t.val t.isLt).2 (ix2 q d)
      = Cert.Spec.accUpTo (qArr V c) (kArr V c) (vArr V c) b r d (t.val % 4) (Nat.mod_lt _ (by decide)) := by
  rw [accUpTo_next _ _ _ _ _ _ _ _ h0]
  by_cases h1 : t.val % 4 = 3
  · rw [outsAt3_C V c t h0 h1]
    dsimp only
    refine (congrFun (sout3_C_0_eq (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (qBlk V c t) (kBlk V c t) (vBlk V c t) (outsAt3 V c (t.val - 1) (Nat.lt_of_le_of_lt (Nat.sub_le _ _) t.isLt)).2) (ix2 q d)).trans ?_
    refine (k3_pay2_apply (qBlk V c t) (kBlk V c t) (vBlk V c t) (outsAt3 V c (t.val - 1) (Nat.lt_of_le_of_lt (Nat.sub_le _ _) t.isLt)).2 q d).trans ?_
    exact congrArg₂ (· + ·) ih (block_sum V c t b r q d ⟨t.val % 4, Nat.mod_lt _ (by decide)⟩ hb hr rfl)
  · rw [outsAt3_B V c t h0 h1]
    dsimp only
    refine (congrFun (sout3_B_0_eq (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (qBlk V c t) (kBlk V c t) (vBlk V c t) (outsAt3 V c (t.val - 1) (Nat.lt_of_le_of_lt (Nat.sub_le _ _) t.isLt)).2) (ix2 q d)).trans ?_
    refine (k3_pay2_apply (qBlk V c t) (kBlk V c t) (vBlk V c t) (outsAt3 V c (t.val - 1) (Nat.lt_of_le_of_lt (Nat.sub_le _ _) t.isLt)).2 q d).trans ?_
    exact congrArg₂ (· + ·) ih (block_sum V c t b r q d ⟨t.val % 4, Nat.mod_lt _ (by decide)⟩ hb hr rfl)

/-- After point n = 16·b + 4·qi + ki the accumulator's entry (q, d) is the closed form up to key block ki, for output row
    512·qi + q of batch b: by induction on the point. -/
theorem acc_inv (c : Dev nD) : ∀ (n : ℕ) (hn : n < cfg3.N) (q : Fin 512) (d : Fin 1024) (b : Fin 4) (r : Fin 2048),
    b.val = n / 16 → r.val = 512 * ((n / 4) % 4) + q.val →
    (outsAt3 V c n hn).2 (ix2 q d)
      = Cert.Spec.accUpTo (qArr V c) (kArr V c) (vArr V c) b r d (n % 4) (Nat.mod_lt _ (by decide)) := by
  intro n
  induction n with
  | zero =>
    intro hn q d b r hb hr
    exact acc_A V c ⟨0, hn⟩ rfl q d b r hb hr
  | succ n ih =>
    intro hn q d b r hb hr
    by_cases h0 : (n + 1) % 4 = 0
    · exact acc_A V c ⟨n + 1, hn⟩ h0 q d b r hb hr
    · refine acc_BC V c ⟨n + 1, hn⟩ h0 q d b r hb hr ?_
      exact (ih (Nat.lt_of_succ_lt hn) q d b r (by omega) (by omega)).trans
        (accUpTo_congr _ _ _ d _ _ rfl rfl (by show n % 4 = (n + 1) % 4 - 1; omega))

/-! ## What a writing point leaves in the result block -/

/-- At the last point of a group of four the result block's entry (0, q, d) is the blockwise sum for output row r of
    batch b: the accumulator just stored, all four key blocks in. -/
theorem out_at_flush (c : Dev nD) (t : Fin cfg3.N) (h3 : t.val % 4 = 3) (q : Fin 512) (d : Fin 1024) (b : Fin 4) (r : Fin 2048)
    (hb : b.val = t.val / 16) (hr : r.val = 512 * ((t.val / 4) % 4) + q.val) :
    (outsAt3 V c t.val t.isLt).1 (ix3 (0 : Fin 1) q d) = Cert.Spec.attnKerAt (qArr V c) (kArr V c) (vArr V c) b r d := by
  have h0 : ¬t.val % 4 = 0 := by omega
  refine Eq.trans ?_ (((acc_inv V c t.val t.isLt q d b r hb hr).trans
    (accUpTo_congr _ _ _ d _ (by omega) rfl rfl h3)).trans (Cert.Spec.accUpTo_three (qArr V c) (kArr V c) (vArr V c) b r d))
  rw [outsAt3_C V c t h0 h3]
  dsimp only
  refine (congrFun (out3_C_3_eq (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h3) (qBlk V c t) (kBlk V c t) (vBlk V c t) (outsAt3 V c (t.val - 1) (Nat.lt_of_le_of_lt (Nat.sub_le _ _) t.isLt)).2) (ix3 (0 : Fin 1) q d)).trans ?_
  refine (k3_pay3_apply _ q d).trans ?_
  exact (congrFun (sout3_C_0_eq (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h3) (qBlk V c t) (kBlk V c t) (vBlk V c t) (outsAt3 V c (t.val - 1) (Nat.lt_of_le_of_lt (Nat.sub_le _ _) t.isLt)).2) (ix2 q d)).symm

/-- What a writing point writes back is its block of the blockwise sum of the three arrays. -/
theorem flushed3_eq (c : Dev nD) (t : Fin cfg3.N) (hf : (cfg3.win 3).flush t = true) :
    (dat3 (F := Ideal) V c).flushed 3 t
      = ((cfg3.win 3).blk t).view.read (Elt Ideal) (Cert.Spec.attnKer (qArr V c) (kArr V c) (vArr V c)) := by
  have h3 : t.val % 4 = 3 := (flush3_3 t).mp hf
  have hN : cfg3.N = 64 := N_3
  have ht : t.val < 64 := hN ▸ t.isLt
  obtain ⟨e00, e01, e02, e10, e11, e12, e20, e21, e22, e30, e31, e32⟩ := idx_facts3 t
  show (cfg3.win 3).cut (grid3.coords t) ((dat3 V c).after 3 t) = _
  rw [after3_3]
  funext y
  rw [View.read_apply]
  have hy0 : (y 0).val = 0 := by have : (y 0).val < 1 := (y 0).isLt; omega
  have hy1 : (y 1).val < 512 := (y 1).isLt
  have hy2 : (y 2).val < 1024 := (y 2).isLt
  have hy : y = ix3 (0 : Fin 1) (⟨(y 1).val, hy1⟩ : Fin 512) (⟨(y 2).val, hy2⟩ : Fin 1024) := by
    funext a; apply Fin.ext
    match a with
    | ⟨0, _⟩ => exact hy0
    | ⟨1, _⟩ => rfl
    | ⟨2, _⟩ => rfl
  show (outsAt3 V c t.val t.isLt).1 y
    = Cert.Spec.attnKerAt (qArr V c) (kArr V c) (vArr V c) (((cfg3.win 3).blk t).view.emb y 0) (((cfg3.win 3).blk t).view.emb y 1) (((cfg3.win 3).blk t).view.emb y 2)
  refine (congrArg (outsAt3 V c t.val t.isLt).1 hy).trans ?_
  refine (out_at_flush V c t h3 ⟨(y 1).val, hy1⟩ ⟨(y 2).val, hy2⟩ ⟨t.val / 16, by omega⟩ ⟨512 * ((t.val / 4) % 4) + (y 1).val, by omega⟩ rfl rfl).trans ?_
  refine attnKerAt_congr _ _ _ (Fin.ext ?_) (Fin.ext ?_) (Fin.ext ?_)
  · show t.val / 16 = win3_3.index t (0 : Fin 3) * 1 + 1 * (y 0).val; omega
  · show 512 * ((t.val / 4) % 4) + (y 1).val = win3_3.index t (1 : Fin 3) * 512 + 1 * (y 1).val; omega
  · show (y 2).val = win3_3.index t (2 : Fin 3) * 1024 + 1 * (y 2).val; omega

/-! ## The written blocks tile the result array -/

/-- Row (b, s) of the result is in the block written at point 16·b + 4·(s / 512) + 3. -/
theorem cover3 (i : S4x2048x1024.Idx) :
    ∃ t : Fin cfg3.N, (cfg3.win 3).flush t = true ∧ i ∈ ((cfg3.win 3).blk t).view.set := by
  have hN : cfg3.N = 64 := N_3
  have hi0 : (i 0).val < 4 := (i 0).isLt
  have hi1 : (i 1).val < 2048 := (i 1).isLt
  have hi2 : (i 2).val < 1024 := (i 2).isLt
  have htN : 16 * (i 0).val + 4 * ((i 1).val / 512) + 3 < cfg3.N := by rw [hN]; omega
  refine ⟨⟨16 * (i 0).val + 4 * ((i 1).val / 512) + 3, htN⟩, (flush3_3 _).mpr (by show (16 * (i 0).val + 4 * ((i 1).val / 512) + 3) % 4 = 3; omega), ?_⟩
  obtain ⟨e00, e01, e02, e10, e11, e12, e20, e21, e22, e30, e31, e32⟩ := idx_facts3 ⟨16 * (i 0).val + 4 * ((i 1).val / 512) + 3, htN⟩
  have f0 : win3_3.index ⟨16 * (i 0).val + 4 * ((i 1).val / 512) + 3, htN⟩ (0 : Fin 3) = (i 0).val := by
    rw [e30]; show (16 * (i 0).val + 4 * ((i 1).val / 512) + 3) / 16 = _; omega
  have f1 : win3_3.index ⟨16 * (i 0).val + 4 * ((i 1).val / 512) + 3, htN⟩ (1 : Fin 3) = (i 1).val / 512 := by
    rw [e31]; show ((16 * (i 0).val + 4 * ((i 1).val / 512) + 3) / 4) % 4 = _; omega
  show i ∈ ((View.whole main_v12).slice (win3_3.rect ⟨16 * (i 0).val + 4 * ((i 1).val / 512) + 3, htN⟩)).set
  rw [View.set_slice_whole, Rect.mem_set_unit]
  intro a
  match a with
  | ⟨0, _⟩ =>
    show win3_3.index ⟨16 * (i 0).val + 4 * ((i 1).val / 512) + 3, htN⟩ (0 : Fin 3) * 1 ≤ (i 0).val ∧ (i 0).val < win3_3.index ⟨16 * (i 0).val + 4 * ((i 1).val / 512) + 3, htN⟩ (0 : Fin 3) * 1 + 1
    rw [f0]; omega
  | ⟨1, _⟩ =>
    show win3_3.index ⟨16 * (i 0).val + 4 * ((i 1).val / 512) + 3, htN⟩ (1 : Fin 3) * 512 ≤ (i 1).val ∧ (i 1).val < win3_3.index ⟨16 * (i 0).val + 4 * ((i 1).val / 512) + 3, htN⟩ (1 : Fin 3) * 512 + 512
    rw [f1]; omega
  | ⟨2, _⟩ =>
    show win3_3.index ⟨16 * (i 0).val + 4 * ((i 1).val / 512) + 3, htN⟩ (2 : Fin 3) * 1024 ≤ (i 2).val ∧ (i 2).val < win3_3.index ⟨16 * (i 0).val + 4 * ((i 1).val / 512) + 3, htN⟩ (2 : Fin 3) * 1024 + 1024
    rw [e32]; omega

/-! ## The result array after the region -/

/-- After its 64 points the attention region's result array holds the blockwise sum of the query, key and value arrays as
    the region found them, at every index. -/
theorem final3 (c : Dev nD) :
    (dat3 (F := Ideal) V c).arrAt 3 cfg3.N = Cert.Spec.attnKer (V c main_v5) (V c main_v8) (V c main_v11) :=
  (dat3 (F := Ideal) V c).arrAt_eq_of_cover 3 (Cert.Spec.attnKer (qArr V c) (kArr V c) (vArr V c)) (fun t hf => flushed3_eq V c t hf) cover3

end Cert.KernelIdeal.Gen.Hand

end
-- ==== Proof.RefVal.lean ====
import proofs.«101586_j4587025072774_1_alg».proof.Defs
import proofs.«101586_j4587025072774_1_alg».proof.Proof.Gen.ReferenceIdeal.Run
import proofs.«101586_j4587025072774_1_alg».proof.Proof.Gen.ReferenceIdeal.Read
import proofs.«101586_j4587025072774_1_alg».proof.Proof.Spec

/-!
  The reference side of the value claim: the reference program's result array, read index by index, is the
  specification's function `Cert.Spec.refOut` of the nine argument arrays — three projections (a row against a weight
  row, plus the bias), the rectified scores of a query row against every key row, and one sum over all 2048 keys.
-/

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-- The first projection at an index: the sum over the input features plus the bias. -/
theorem v3_eq (x0 : (⟨S4x2048x1024, .f32⟩ : BufTy).Contents (Elt Ideal)) (x3 : (⟨S1024x1024, .f32⟩ : BufTy).Contents (Elt Ideal))
    (x4 : (⟨S1024, .f32⟩ : BufTy).Contents (Elt Ideal)) (j : S4x2048x1024.Idx) :
    val_main_v3 (F := Ideal) x0 x3 x4 j = Cert.Spec.lin x0 x3 x4 j := by
  rw [val_main_v3_apply, val_main_v0_apply, val_main_v2_apply, val_main_v1_apply]
  show (∑ k : Fin 1024, x0 (lidx_main_v0 j k) * x3 (ridx_main_v0 j k)) + x4 (idx_main_v1 (idx_main_v2 j)) = Cert.Spec.linAt x0 x3 x4 (j 0) (j 1) (j 2)
  unfold Cert.Spec.linAt
  congr 1
  · refine Finset.sum_congr rfl fun k _ => ?_
    congr 2
    · exact funext fun a => by match a with | ⟨0, _⟩ => rfl | ⟨1, _⟩ => rfl | ⟨2, _⟩ => rfl
    · exact funext fun a => by match a with | ⟨0, _⟩ => rfl | ⟨1, _⟩ => rfl
  · congr 1
    exact funext fun a => by match a with | ⟨0, _⟩ => rfl

/-- The second projection at an index: the sum over the input features plus the bias. -/
theorem v7_eq (x0 : (⟨S4x2048x1024, .f32⟩ : BufTy).Contents (Elt Ideal)) (x3 : (⟨S1024x1024, .f32⟩ : BufTy).Contents (Elt Ideal))
    (x4 : (⟨S1024, .f32⟩ : BufTy).Contents (Elt Ideal)) (j : S4x2048x1024.Idx) :
    val_main_v7 (F := Ideal) x0 x3 x4 j = Cert.Spec.lin x0 x3 x4 j := by
  rw [val_main_v7_apply, val_main_v4_apply, val_main_v6_apply, val_main_v5_apply]
  show (∑ k : Fin 1024, x0 (lidx_main_v4 j k) * x3 (ridx_main_v4 j k)) + x4 (idx_main_v5 (idx_main_v6 j)) = Cert.Spec.linAt x0 x3 x4 (j 0) (j 1) (j 2)
  unfold Cert.Spec.linAt
  congr 1
  · refine Finset.sum_congr rfl fun k _ => ?_
    congr 2
    · exact funext fun a => by match a with | ⟨0, _⟩ => rfl | ⟨1, _⟩ => rfl | ⟨2, _⟩ => rfl
    · exact funext fun a => by match a with | ⟨0, _⟩ => rfl | ⟨1, _⟩ => rfl
  · congr 1
    exact funext fun a => by match a with | ⟨0, _⟩ => rfl

/-- The third projection at an index: the sum over the input features plus the bias. -/
theorem v11_eq (x0 : (⟨S4x2048x1024, .f32⟩ : BufTy).Contents (Elt Ideal)) (x3 : (⟨S1024x1024, .f32⟩ : BufTy).Contents (Elt Ideal))
    (x4 : (⟨S1024, .f32⟩ : BufTy).Contents (Elt Ideal)) (j : S4x2048x1024.Idx) :
    val_main_v11 (F := Ideal) x0 x3 x4 j = Cert.Spec.lin x0 x3 x4 j := by
  rw [val_main_v11_apply, val_main_v8_apply, val_main_v10_apply, val_main_v9_apply]
  show (∑ k : Fin 1024, x0 (lidx_main_v8 j k) * x3 (ridx_main_v8 j k)) + x4 (idx_main_v9 (idx_main_v10 j)) = Cert.Spec.linAt x0 x3 x4 (j 0) (j 1) (j 2)
  unfold Cert.Spec.linAt
  congr 1
  · refine Finset.sum_congr rfl fun k _ => ?_
    congr 2
    · exact funext fun a => by match a with | ⟨0, _⟩ => rfl | ⟨1, _⟩ => rfl | ⟨2, _⟩ => rfl
    · exact funext fun a => by match a with | ⟨0, _⟩ => rfl | ⟨1, _⟩ => rfl
  · congr 1
    exact funext fun a => by match a with | ⟨0, _⟩ => rfl

theorem ref_eq (x0 x1 x2 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) :
    Cert.ReferenceIdeal.Read.val_main_v14 (F := Ideal) x0 x1 x2 x3 x4 x5 x6 x7 x8 = Cert.Spec.refOut x0 x1 x2 x3 x4 x5 x6 x7 x8 := by
  funext i
  rw [val_main_v14_apply]
  show _ = Cert.Spec.attnRefAt (Cert.Spec.lin x0 x3 x4) (Cert.Spec.lin x1 x5 x6) (Cert.Spec.lin x2 x7 x8) (i 0) (i 1) (i 2)
  unfold Cert.Spec.attnRefAt
  refine Finset.sum_congr rfl fun k _ => ?_
  rw [val_main_v13_apply, val_main_v12_apply, val_main_call0_v0_apply, val_main_call0_cst_apply, v11_eq]
  congr 1
  · unfold Cert.Spec.scoreAt
    show max _ (Ideal.ofBits .f32 0x00000000#32) = max _ 0
    rw [Ideal.ofBits_zero_f32]
    congr 1
    refine Finset.sum_congr rfl fun e _ => ?_
    rw [v3_eq, v7_eq]
    congr 2
    · exact funext fun a => by match a with | ⟨0, _⟩ => rfl | ⟨1, _⟩ => rfl | ⟨2, _⟩ => rfl
    · exact funext fun a => by match a with | ⟨0, _⟩ => rfl | ⟨1, _⟩ => rfl | ⟨2, _⟩ => rfl

theorem run_spec (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread nD τ).loc main_v14) = Cert.Spec.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (Cert.ReferenceIdeal.defs (F := Ideal)) _ _).mono (fun _ h c => ⟨(h c).1.trans ((val_main_v14_eq _ _ _ _ _ _ _ _ _).trans (ref_eq _ _ _ _ _ _ _ _ _)), (h c).2⟩)
    (Cert.ReferenceIdeal.Value.run (F := Ideal) m ρ)

/-- The reference runs and leaves its nine argument arrays unchanged: the run with the result dropped. -/
theorem frame_ri [hPre_finite_inputs : Cert.Pre_finite_inputs.Facts] : Cert.frame_ReferenceIdeal := fun m ρ _ =>
  (θ_run (Cert.ReferenceIdeal.defs (F := Ideal)) _ _).mono (fun _ h c => (h c).2) (Cert.ReferenceIdeal.Value.run (F := Ideal) m ρ)

end Cert.ReferenceIdeal.RefValue

end
-- ==== Proof.lean ====
import proofs.«101586_j4587025072774_1_alg».proof.Defs
import proofs.«101586_j4587025072774_1_alg».proof.Proof.Gen.Kernel
import proofs.«101586_j4587025072774_1_alg».proof.Proof.Gen.KernelIdeal
import proofs.«101586_j4587025072774_1_alg».proof.Proof.Gen.ReferenceIdeal
import proofs.«101586_j4587025072774_1_alg».proof.Proof.Gen.Pre_finite_inputs
import proofs.«101586_j4587025072774_1_alg».proof.Proof.K.Run
import proofs.«101586_j4587025072774_1_alg».proof.Proof.KI.HostVal
import proofs.«101586_j4587025072774_1_alg».proof.Proof.KI.AttnVal
import proofs.«101586_j4587025072774_1_alg».proof.Proof.RefVal
import proofs.«101586_j4587025072774_1_alg».proof.Proof.Spec

/-!
# Rectified attention over three linear projections: the kernel against its reference

Both programs compute, on the extended reals, Q = x_q·W_qᵀ + b_q, K = x_k·W_kᵀ + b_k, V = x_v·W_vᵀ + b_v and then
out[p, q, d] = Σ_k max(Σ_e Q[p, q, e]·K[p, k, e], 0) · V[p, k, d]. The reference takes the sum over all 2048 keys at once.
The kernel projects 512 rows per grid point in three regions, and in a fourth walks the keys 512 at a time, adding each
block's contribution into an accumulator that starts at zero and is copied out after the fourth block. A sum over 2048
keys is the sum over the four blocks of the sums inside each block (addition on the extended reals is commutative and
associative, so no finiteness is needed), and zero plus the first block's contribution is that contribution: the two
results are equal entry by entry. Each program runs to the end, faults nowhere and leaves its arguments as launched;
the idealized kernel is the kernel's own text (no rewrite was applied).
-/

noncomputable section

namespace Cert.Proof

open Idealize.ShloMosaic Idealize.SL.Sem

theorem frame_k : Cert.frame_Kernel := fun m ρ _ => Cert.Kernel.Gen.Hand.frame m ρ

theorem frame_ki : Cert.frame_KernelIdeal := fun m ρ _ => Cert.KernelIdeal.Gen.Hand.frame m ρ

theorem frame_ri : Cert.frame_ReferenceIdeal := Cert.ReferenceIdeal.RefValue.frame_ri

/-- From memories agreeing on the nine arguments both programs end with the result array holding the same function of
    them: the kernel's blockwise sum, which is the reference's single sum. -/
theorem algebraic : Cert.algebraic_KernelIdeal_ReferenceIdeal := by
  intro m ρ m' ρ' _ hagree
  refine ⟨fun c => Cert.Spec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), Cert.KernelIdeal.Gen.Hand.run_value_of m ρ (fun c => Cert.KernelIdeal.Gen.Hand.final3 (Cert.KernelIdeal.Gen.Hand.X7 m) c), ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (Cert.Spec.kerOut_eq_refOut _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
